-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S131072x2 : Shape := ⟨2, ![131072, 2]⟩
abbrev S64x256 : Shape := ⟨2, ![64, 256]⟩
abbrev S64 : Shape := ⟨1, ![64]⟩
abbrev S64x64 : Shape := ⟨2, ![64, 64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S131072x2 : S_.BroadcastsInDim S131072x2 (![] : Fin 0 → Fin S131072x2.rank)
  reducesTo_S131072x2_S_d0_1 : S131072x2.ReducesTo [0, 1] S_

variable [Facts]

def fn_part1 {F : FTy → Type} [FloatOps F] (main_arg1 : IVec S131072x2 32) (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S131072x2 32 := broadcastInDim S131072x2 ![] bcast_S_S131072x2 main_c_8
  let main_v25 : IVec S131072x2 1 := cmpi .sge main_arg1 main_v24
  let main_c_9 : IVec S_ 32 := constantI S_ 32 4096#32
  let main_v26 : IVec S131072x2 32 := broadcastInDim S131072x2 ![] bcast_S_S131072x2 main_c_9
  let main_v27 : IVec S131072x2 1 := cmpi .slt main_arg1 main_v26
  let main_v28 : IVec S131072x2 1 := andi main_v25 main_v27
  let main_c_10 : IVec S_ 1 := constantI S_ 1 1#1
  let main_v29 : IVec S_ 1 := (fun x v => Host.reduce IntOp.andi x v reducesTo_S131072x2_S_d0_1 h_S_) main_v28 main_c_10
  let main_v30 : IVec S_ 1 := andi main_v23 main_v29
  main_v30

def fn {F : FTy → Type} [FloatOps F] (main_arg0 : FVec F S4x4096x64 .f32) (main_arg1 : IVec S131072x2 32) (main_arg2 : FVec F S64x256 .f32) (main_arg3 : FVec F S64 .f32) (main_arg4 : FVec F S64x64 .f32) (main_arg5 : FVec F S64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S64x256 .f32 := Host.absf main_arg2
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_v13 main_v16
-- ==== Kernel.lean ====
abbrev S4x4096x64 : Shape := ⟨3, ![4, 4096, 64]⟩
abbrev S131072x2 : Shape := ⟨2, ![131072, 2]⟩
abbrev S64x256 : Shape := ⟨2, ![64, 256]⟩
abbrev S64 : Shape := ⟨1, ![64]⟩
abbrev S64x64 : Shape := ⟨2, ![64, 64]⟩
abbrev S262144 : Shape := ⟨1, ![262144]⟩
abbrev S_ : Shape := ⟨0, ![]⟩
abbrev S262144x1 : Shape := ⟨2, ![262144, 1]⟩
abbrev S1 : Shape := ⟨1, ![1]⟩
abbrev S1x1 : Shape := ⟨2, ![1, 1]⟩
abbrev S4x262144x64 : Shape := ⟨3, ![4, 262144, 64]⟩
abbrev S4x131072x128 : Shape := ⟨3, ![4, 131072, 128]⟩
abbrev S524288x128 : Shape := ⟨2, ![524288, 128]⟩
abbrev S256x64 : Shape := ⟨2, ![256, 64]⟩
abbrev S128x64 : Shape := ⟨2, ![128, 64]⟩
abbrev S1x64 : Shape := ⟨2, ![1, 64]⟩
abbrev S524288x64 : Shape := ⟨2, ![524288, 64]⟩
abbrev S8192x128 : Shape := ⟨2, ![8192, 128]⟩
abbrev S8192x64 : Shape := ⟨2, ![8192, 64]⟩
abbrev S4x131072x64 : Shape := ⟨3, ![4, 131072, 64]⟩

abbrev nBuf : Space → Nat
  | .hbm => 49
  | .vmem => 9
  | .smem => 0
  | _ => 0

abbrev bufTy : (tb : Table) → Fin (tcTables nBuf tb) → BufTy
  | .hbm, ⟨0, _⟩ => ⟨S4x4096x64, .f32⟩
  | .hbm, ⟨1, _⟩ => ⟨S131072x2, .i32⟩
  | .hbm, ⟨2, _⟩ => ⟨S64x256, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S262144, .i32⟩
  | .hbm, ⟨7, _⟩ => ⟨S_, .i32⟩
  | .hbm, ⟨8, _⟩ => ⟨S262144, .i32⟩
  | .hbm, ⟨9, _⟩ => ⟨S262144, .i1⟩
  | .hbm, ⟨10, _⟩ => ⟨S_, .i32⟩
  | .hbm, ⟨11, _⟩ => ⟨S262144, .i32⟩
  | .hbm, ⟨12, _⟩ => ⟨S262144, .i32⟩
  | .hbm, ⟨13, _⟩ => ⟨S262144, .i32⟩
  | .hbm, ⟨14, _⟩ => ⟨S262144x1, .i32⟩
  | .hbm, ⟨15, _⟩ => ⟨S1, .i32⟩
  | .hbm, ⟨16, _⟩ => ⟨S_, .i32⟩
  | .hbm, ⟨17, _⟩ => ⟨S262144x1, .i32⟩
  | .hbm, ⟨18, _⟩ => ⟨S262144x1, .i1⟩
  | .hbm, ⟨19, _⟩ => ⟨S1x1, .i32⟩
  | .hbm, ⟨20, _⟩ => ⟨S262144x1, .i32⟩
  | .hbm, ⟨21, _⟩ => ⟨S262144x1, .i1⟩
  | .hbm, ⟨22, _⟩ => ⟨S262144x1, .i1⟩
  | .hbm, ⟨23, _⟩ => ⟨S_, .i1⟩
  | .hbm, ⟨24, _⟩ => ⟨S262144, .i1⟩
  | .hbm, ⟨25, _⟩ => ⟨S4x262144x64, .f32⟩
  | .hbm, ⟨26, _⟩ => ⟨S4x262144x64, .i1⟩
  | .hbm, ⟨27, _⟩ => ⟨S_, .f32⟩
  | .hbm, ⟨28, _⟩ => ⟨S4x262144x64, .f32⟩
  | .hbm, ⟨29, _⟩ => ⟨S4x262144x64, .f32⟩
  | .hbm, ⟨30, _⟩ => ⟨S4x131072x128, .f32⟩
  | .hbm, ⟨31, _⟩ => ⟨S4x131072x128, .bf16⟩
  | .hbm, ⟨32, _⟩ => ⟨S524288x128, .bf16⟩
  | .hbm, ⟨33, _⟩ => ⟨S256x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S128x64, .f32⟩
  | .hbm, ⟨41, _⟩ => ⟨S128x64, .bf16⟩
  | .hbm, ⟨42, _⟩ => ⟨S64x64, .bf16⟩
  | .hbm, ⟨43, _⟩ => ⟨S64x64, .f32⟩
  | .hbm, ⟨44, _⟩ => ⟨S64x64, .bf16⟩
  | .hbm, ⟨45, _⟩ => ⟨S1x64, .f32⟩
  | .hbm, ⟨46, _⟩ => ⟨S1x64, .f32⟩
  | .hbm, ⟨47, _⟩ => ⟨S524288x64, .f32⟩
  | .hbm, ⟨48, _⟩ => ⟨S4x131072x64, .f32⟩
  | .local _ .vmem, ⟨0, _⟩ => ⟨S8192x128, .bf16⟩
  | .local _ .vmem, ⟨1, _⟩ => ⟨S8192x128, .bf16⟩
  | .local _ .vmem, ⟨2, _⟩ => ⟨S128x64, .bf16⟩
  | .local _ .vmem, ⟨3, _⟩ => ⟨S64x64, .bf16⟩
  | .local _ .vmem, ⟨4, _⟩ => ⟨S1x64, .f32⟩
  | .local _ .vmem, ⟨5, _⟩ => ⟨S64x64, .bf16⟩
  | .local _ .vmem, ⟨6, _⟩ => ⟨S1x64, .f32⟩
  | .local _ .vmem, ⟨7, _⟩ => ⟨S8192x64, .f32⟩
  | .local _ .vmem, ⟨8, _⟩ => ⟨S8192x64, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S131072x2_S262144 : S131072x2.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S262144_d1 : S262144x1.ReducesTo [1] S262144
  h_S_ : 0 < S_.numel
  bcast_S262144_S4x262144x64_1 : S262144.BroadcastsInDim S4x262144x64 (![1] : Fin 1 → Fin S4x262144x64.rank)
  bcast_S_S4x262144x64 : S_.BroadcastsInDim S4x262144x64 (![] : Fin 0 → Fin S4x262144x64.rank)
  shapeCasts_S4x262144x64_S4x131072x128 : S4x262144x64.ShapeCasts S4x131072x128
  bitsLt_bf16_f32 : FTy.bits .bf16 < FTy.bits .f32
  shapeCasts_S4x131072x128_S524288x128 : S4x131072x128.ShapeCasts S524288x128
  transposes_S64x256_S256x64_1_0 : S64x256.Transposes [1, 0] S256x64
  slices_S256x64_S64x64_0_0 : S256x64.Slices ![0, 0] S64x64
  slices_S256x64_S64x64_64_0 : S256x64.Slices ![64, 0] S64x64
  slices_S256x64_S64x64_128_0 : S256x64.Slices ![128, 0] S64x64
  slices_S256x64_S64x64_192_0 : S256x64.Slices ![192, 0] S64x64
  concatenates_S64x64_S64x64_S128x64_d0 : Shape.Concatenates [S64x64, S64x64] S128x64 0
  transposes_S64x64_S64x64_1_0 : S64x64.Transposes [1, 0] S64x64
  shapeCasts_S64_S1x64 : S64.ShapeCasts S1x64
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  slices_S8192x128_o0_0_S8192x64 : S8192x128.Slices ![0, 0] S8192x64
  slices_S8192x128_o0_64_S8192x64 : S8192x128.Slices ![0, 64] S8192x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S8192x64_S8192x64_0_0 : ∀ a, (![0, 0] : Fin 2 → Nat) a + S8192x64.size a ≤ S8192x64.size a
  h_S8192x64 : 0 < S8192x64.numel
  shapeCasts_S524288x64_S4x131072x64 : S524288x64.ShapeCasts S4x131072x64
  gather_S4x4096x64_S262144x1_S4x262144x64_02_1_n_n_1_1_4164_wf : GatherDims.WF S4x4096x64 S262144x1 S4x262144x64 [0, 2] [1] [] [1] [] 1 ![4, 1, 64]
  dot_S8192x128_S128x64_S8192x64_1_0_0_1_n_n_wf : DotDims.WF S8192x128 S128x64 S8192x64 [1] [0] [0] [1] [] []
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .bf16 = 32 ∨ (Rect.block (s := S524288x128) S8192x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192x64.size a ≤ S524288x64.size a
  hwx0_6 : ∀ i : grid0.Coords, EltTy.bits .f32 = 32 ∨ (Rect.block (s := S524288x64) S8192x64.size (cc0_transform_6 i) (hinb0_6 i)).WholeWords (EltTy.packing .f32)

variable [Facts₀]

def gather_S4x4096x64_S262144x1_S4x262144x64_02_1_n_n_1_1_4164 : GatherDims S4x4096x64 S262144x1 S4x262144x64 where
  offsetDims := [0, 2]
  collapsedSliceDims := [1]
  operandBatchingDims := []
  startIndicesBatchingDims := []
  startIndexMap := [1]
  indexVectorDim := 1
  sliceSizes := ![4, 1, 64]
  wf := gather_S4x4096x64_S262144x1_S4x262144x64_02_1_n_n_1_1_4164_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_v4) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S8192x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x4096x64 : Shape := ⟨3, ![4, 4096, 64]⟩
abbrev S131072x2 : Shape := ⟨2, ![131072, 2]⟩
abbrev S64x256 : Shape := ⟨2, ![64, 256]⟩
abbrev S64 : Shape := ⟨1, ![64]⟩
abbrev S64x64 : Shape := ⟨2, ![64, 64]⟩
abbrev S131072x1 : Shape := ⟨2, ![131072, 1]⟩
abbrev S131072 : Shape := ⟨1, ![131072]⟩
abbrev S_ : Shape := ⟨0, ![]⟩
abbrev S4x131072x64 : Shape := ⟨3, ![4, 131072, 64]⟩
abbrev S4x131072x256 : Shape := ⟨3, ![4, 131072, 256]⟩
abbrev S1x1x64 : Shape := ⟨3, ![1, 1, 64]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S131072x2, .i32⟩
  | .hbm, ⟨2, _⟩ => ⟨S64x256, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S131072x1, .i32⟩
  | .hbm, ⟨7, _⟩ => ⟨S131072, .i32⟩
  | .hbm, ⟨8, _⟩ => ⟨S_, .i32⟩
  | .hbm, ⟨9, _⟩ => ⟨S131072, .i32⟩
  | .hbm, ⟨10, _⟩ => ⟨S131072, .i1⟩
  | .hbm, ⟨11, _⟩ => ⟨S_, .i32⟩
  | .hbm, ⟨12, _⟩ => ⟨S131072, .i32⟩
  | .hbm, ⟨13, _⟩ => ⟨S131072, .i32⟩
  | .hbm, ⟨14, _⟩ => ⟨S131072, .i32⟩
  | .hbm, ⟨15, _⟩ => ⟨S131072x1, .i32⟩
  | .hbm, ⟨16, _⟩ => ⟨S4x131072x64, .f32⟩
  | .hbm, ⟨17, _⟩ => ⟨S131072x1, .i32⟩
  | .hbm, ⟨18, _⟩ => ⟨S131072, .i32⟩
  | .hbm, ⟨19, _⟩ => ⟨S_, .i32⟩
  | .hbm, ⟨20, _⟩ => ⟨S131072, .i32⟩
  | .hbm, ⟨21, _⟩ => ⟨S131072, .i1⟩
  | .hbm, ⟨22, _⟩ => ⟨S_, .i32⟩
  | .hbm, ⟨23, _⟩ => ⟨S131072, .i32⟩
  | .hbm, ⟨24, _⟩ => ⟨S131072, .i32⟩
  | .hbm, ⟨25, _⟩ => ⟨S131072, .i32⟩
  | .hbm, ⟨26, _⟩ => ⟨S131072x1, .i32⟩
  | .hbm, ⟨27, _⟩ => ⟨S4x131072x64, .f32⟩
  | .hbm, ⟨28, _⟩ => ⟨S4x131072x64, .f32⟩
  | .hbm, ⟨29, _⟩ => ⟨S4x131072x64, .f32⟩
  | .hbm, ⟨30, _⟩ => ⟨S4x131072x256, .f32⟩
  | .hbm, ⟨31, _⟩ => ⟨S4x131072x64, .f32⟩
  | .hbm, ⟨32, _⟩ => ⟨S1x1x64, .f32⟩
  | .hbm, ⟨33, _⟩ => ⟨S4x131072x64, .f32⟩
  | .hbm, ⟨34, _⟩ => ⟨S4x131072x64, .f32⟩
  | .hbm, ⟨35, _⟩ => ⟨S_, .f32⟩
  | .hbm, ⟨36, _⟩ => ⟨S4x131072x64, .f32⟩
  | .hbm, ⟨37, _⟩ => ⟨S4x131072x64, .f32⟩
  | .hbm, ⟨38, _⟩ => ⟨S4x131072x64, .f32⟩
  | .hbm, ⟨39, _⟩ => ⟨S1x1x64, .f32⟩
  | .hbm, ⟨40, _⟩ => ⟨S4x131072x64, .f32⟩
  | .hbm, ⟨41, _⟩ => ⟨S4x131072x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_cst : Ref sig .tc := ⟨.hbm, 35, rfl⟩
abbrev main_call0_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  slices_S131072x2_S131072x1_0_0 : S131072x2.Slices ![0, 0] S131072x1
  shapeCasts_S131072x1_S131072 : S131072x1.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  slices_S131072x2_S131072x1_0_1 : S131072x2.Slices ![0, 1] S131072x1
  concatenates_S4x131072x64_S4x131072x64_S4x131072x64_S4x131072x64_S4x131072x256_d2 : Shape.Concatenates [S4x131072x64, S4x131072x64, S4x131072x64, S4x131072x64] S4x131072x256 2
  bcast_S64_S1x1x64_2 : S64.BroadcastsInDim S1x1x64 (![2] : Fin 1 → Fin S1x1x64.rank)
  bcast_S1x1x64_S4x131072x64_0_1_2 : S1x1x64.BroadcastsInDim S4x131072x64 (![0, 1, 2] : Fin 3 → Fin S4x131072x64.rank)
  bcast_S_S4x131072x64 : S_.BroadcastsInDim S4x131072x64 (![] : Fin 0 → Fin S4x131072x64.rank)
  gather_S4x4096x64_S131072x1_S4x131072x64_02_1_n_n_1_1_4164_wf : GatherDims.WF S4x4096x64 S131072x1 S4x131072x64 [0, 2] [1] [] [1] [] 1 ![4, 1, 64]
  dot_S4x131072x256_S64x256_S4x131072x64_2_1_01_0_n_n_wf : DotDims.WF S4x131072x256 S64x256 S4x131072x64 [2] [1] [0, 1] [0] [] []
  dot_S4x131072x64_S64x64_S4x131072x64_2_1_01_0_n_n_wf : DotDims.WF S4x131072x64 S64x64 S4x131072x64 [2] [1] [0, 1] [0] [] []

variable [Facts₀]

def gather_S4x4096x64_S131072x1_S4x131072x64_02_1_n_n_1_1_4164 : GatherDims S4x4096x64 S131072x1 S4x131072x64 where
  offsetDims := [0, 2]
  collapsedSliceDims := [1]
  operandBatchingDims := []
  startIndicesBatchingDims := []
  startIndexMap := [1]
  indexVectorDim := 1
  sliceSizes := ![4, 1, 64]
  wf := gather_S4x4096x64_S131072x1_S4x131072x64_02_1_n_n_1_1_4164_wf
def dot_S4x131072x256_S64x256_S4x131072x64_2_1_01_0_n_n : DotDims S4x131072x256 S64x256 S4x131072x64 where
  lhsContracting := [2]
  rhsContracting := [1]
  lhsNonContracting := [0, 1]
  rhsNonContracting := [0]
  lhsBatch := []
  rhsBatch := []
  wf := dot_S4x131072x256_S64x256_S4x131072x64_2_1_01_0_n_n_wf
def dot_S4x131072x64_S64x64_S4x131072x64_2_1_01_0_n_n : DotDims S4x131072x64 S64x64 S4x131072x64 where
  lhsContracting := [2]
  rhsContracting := [1]
  lhsNonContracting := [0, 1]
  rhsNonContracting := [0]
  lhsBatch := []
  rhsBatch := []
  wf := dot_S4x131072x64_S64x64_S4x131072x64_2_1_01_0_n_n_wf

class Facts : Prop extends Facts₀ where

variable [Facts]
-- ==== Proof.LibConv.lean ====
import Idealize.ShloMosaic.Lib.ValueLayout
import Idealize.ShloMosaic.Lib.StackMember
import Mathlib.Algebra.BigOperators.Fin

/-!
# Layout operations of a block-window convolution body, read at coordinates

What every convolution body of the two programs does around its matrix products, for arrays of any extents: a
three-axis array flattened to a matrix and back (row `y · B + x`), a weight piece `[1, 1, a, b]` read as the matrix
`[a, b]`, the bias row laid along every row, the matrix product with the plain dimension numbers into the zero matrix
as a sum over the contracted coordinate, and a sum over `Fin K` as a sum over `range K`.
-/

namespace Cert.LibConv

open Idealize.ShloMosaic Idealize.ShloMosaic.ValueIdx
open Finset

section Layout
variable {α : Type}

/-- An A × B × C array flattened to M × C (M = A · B) reads, at row `m = y · B + x` and column `k`, the array at
    `(y, x, k)`: both have the same place in row-major order. -/
theorem flatten3_apply {A B C M : ℕ} (v : (⟨3, ![A, B, C]⟩ : Shape).Idx → α)
    (h : (⟨3, ![A, B, C]⟩ : Shape).ShapeCasts ⟨2, ![M, C]⟩) (y : Fin A) (x : Fin B) (k : Fin C) (m : Fin M)
    (hm : m.val = y.val * B + x.val) :
    shapeCast ⟨2, ![M, C]⟩ v h (ix2 m k) = v (ix3 y x k) :=
  shapeCast_apply v h _ _ (by
    rw [Shape.rowMajor_val_three, Shape.rowMajor_val_two]
    show (y.val * B + x.val) * C + k.val = m.val * C + k.val
    rw [hm])

/-- An M × C matrix (M = A · B) read as an A × B × C array: at `(y, x, k)` it is the matrix at row
    `m = y · B + x`, column `k`. -/
theorem unflatten3_apply {A B C M : ℕ} (v : (⟨2, ![M, C]⟩ : Shape).Idx → α)
    (h : (⟨2, ![M, C]⟩ : Shape).ShapeCasts ⟨3, ![A, B, C]⟩) (y : Fin A) (x : Fin B) (k : Fin C) (m : Fin M)
    (hm : m.val = y.val * B + x.val) :
    shapeCast ⟨3, ![A, B, C]⟩ v h (ix3 y x k) = v (ix2 m k) :=
  shapeCast_apply v h _ _ (by
    rw [Shape.rowMajor_val_three, Shape.rowMajor_val_two]
    show m.val * C + k.val = (y.val * B + x.val) * C + k.val
    rw [hm])

/-- A `[1, 1, a, b]` array read as the matrix `[a, b]`: at `(i, j)` it is the array at `(0, 0, i, j)`. -/
theorem shapeCast_11ab_ab_apply {a b : ℕ} (v : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ v h (ix2 i j) = v (ix4 (0 : Fin 1) (0 : Fin 1) i j) :=
  shapeCast_apply v h _ _ (by
    rw [Shape.rowMajor_val_four, Shape.rowMajor_val_two]
    show ((0 * 1 + 0) * a + i.val) * b + j.val = i.val * b + j.val
    simp only [Nat.zero_mul, Nat.zero_add])

/-- The bias row `[1, 1, b]`, read as `[1, b]` and laid along each of `a` rows: at `(p, n)` it is the row's
    entry `n`. -/
theorem biasRows_apply {a b : ℕ} (v : (⟨3, ![1, 1, b]⟩ : Shape).Idx → α)
    (h1 : (⟨3, ![1, 1, b]⟩ : Shape).ShapeCasts ⟨2, ![1, b]⟩) (h2 : (⟨2, ![1, b]⟩ : Shape).ShapeCasts ⟨2, ![1, b]⟩)
    (hb : (⟨2, ![1, b]⟩ : Shape).Broadcasts ⟨2, ![a, b]⟩) (p : Fin a) (n : Fin b) :
    broadcastTo ⟨2, ![a, b]⟩ (shapeCast ⟨2, ![1, b]⟩ (shapeCast ⟨2, ![1, b]⟩ v h1) h2) hb (ix2 p n)
      = v (ix3 (0 : Fin 1) (0 : Fin 1) n) := by
  rw [broadcastTo_1b_ab_apply, shapeCast_self, shapeCast_1ab_ab_apply]

end Layout

/-- A product with the plain dimension numbers of an M × K by K × N product, accumulated into the zero matrix, read at
    `(m, n)`: the sum over the contracted coordinate. -/
theorem matmul_plain_zero_apply {M K N : ℕ} {φ₁ φ₂ : FTy} (D : DotDims ⟨2, ![M, K]⟩ ⟨2, ![K, N]⟩ ⟨2, ![M, N]⟩)
    (hD : D = DotDims.plain M K N) (A : FVec Ideal ⟨2, ![M, K]⟩ φ₁) (B : FVec Ideal ⟨2, ![K, N]⟩ φ₂) (m : Fin M)
    (n : Fin N) :
    matmul D none A B (constant (F := Ideal) ⟨2, ![M, N]⟩ .f32 0x00000000#32) (ix2 m n)
      = ∑ k : Fin K, A (ix2 m k) * B (ix2 k n) := by
  subst hD
  rw [matmul_zero_eq_dotGeneral]
  exact StackMember.dotGeneral_plain_apply none A B m n

/-- A sum over `Fin K` whose terms are a function of the coordinate's value is the sum over `range K`. -/
theorem sum_fin {K : ℕ} (f : Fin K → EReal) (g : ℕ → EReal) (h : ∀ k : Fin K, f k = g k.val) :
    ∑ k : Fin K, f k = ∑ k ∈ range K, g k :=
  (Finset.sum_congr rfl fun k _ => h k).trans (Fin.sum_univ_eq_sum_range g K)

end Cert.LibConv
-- ==== Proof.Payload.lean ====
/-
  One block of the kernel, at an entry. The body reads a block `x0` of 8192 rows, each the two endpoint rows side
  by side (128 entries), the folded weights `x1` (128 by 64), the product block's weights `x2` (64 by 64), the first
  bias as a row `x3`, the second layer's weights transposed `x4` (64 by 64) and the second bias as a row `x5`, and
  stores, at row `p` and column `q`,

    Σ_r max (Σ_k x0[p,k]·x1[k,r] + Σ_k (x0[p,k]·x0[p,k+64])·x2[k,r] + x3[0,r]) 0 · x4[r,q] + x5[0,q].

  On the extended reals the narrowing and widening of formats between the steps are the identity, a product
  accumulated into the zero matrix is the plain sum over the contracted coordinate, and the two halves of a row are
  its entries at `k` and at `k + 64`.
-/
import proofs.«401041_j62775241998442_2_alg».proof.Proof.Gen.KernelIdeal.Skeleton
import proofs.«401041_j62775241998442_2_alg».proof.Proof.LibConv
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The first product's dimension numbers are the plain ones of an 8192 × 128 by 128 × 64 product. -/
theorem dot1_plain : dot_S8192x128_S128x64_S8192x64_1_0_0_1_n_n = DotDims.plain 8192 128 64 := rfl
/-- The other two products' dimension numbers are the plain ones of an 8192 × 64 by 64 × 64 product. -/
theorem dot2_plain : dot_S8192x64_S64x64_S8192x64_1_0_0_1_n_n = DotDims.plain 8192 64 64 := rfl

/-- Hidden unit `r` of a row (its 128 entries: the two endpoint rows side by side) before the cut-off at zero. -/
def hid (row : Fin 128 → EReal) (x1 : FVec Ideal S128x64 .bf16) (x2 : FVec Ideal S64x64 .bf16)
    (x3 : FVec Ideal S1x64 .f32) (r : Fin 64) : EReal :=
  (∑ k : Fin 128, row k * x1 (ix2 k r))
    + (∑ k : Fin 64, (row ⟨k.val, by omega⟩ * row ⟨k.val + 64, by omega⟩) * x2 (ix2 k r))
    + x3 (ix2 (0 : Fin 1) r)

/-- Output `q` of a row: the hidden layer cut off at zero against column `q` of the second weights, plus the bias. -/
def rowOut (row : Fin 128 → EReal) (x1 : FVec Ideal S128x64 .bf16) (x2 : FVec Ideal S64x64 .bf16)
    (x3 : FVec Ideal S1x64 .f32) (x4 : FVec Ideal S64x64 .bf16) (x5 : FVec Ideal S1x64 .f32) (q : Fin 64) : EReal :=
  (∑ r : Fin 64, max (hid row x1 x2 x3 r) 0 * x4 (ix2 r q)) + x5 (ix2 (0 : Fin 1) q)

/-- The left half of a row of the block. -/
theorem left_apply (x0 : FVec Ideal S8192x128 .bf16) (p : Fin 8192) (k : Fin 64) :
    extractStridedSlice S8192x64 ![0, 0] x0 slices_S8192x128_o0_0_S8192x64 (ix2 p k) = x0 (ix2 p ⟨k.val, by omega⟩) :=
  extractStridedSlice_apply _ x0 _ (ix2 p k) (ix2 p ⟨k.val, by omega⟩) (fun a => by
    match a with
    | ⟨0, _⟩ => show p.val = 0 + p.val; omega
    | ⟨1, _⟩ => show k.val = 0 + k.val; omega)

/-- The right half of a row of the block. -/
theorem right_apply (x0 : FVec Ideal S8192x128 .bf16) (p : Fin 8192) (k : Fin 64) :
    extractStridedSlice S8192x64 ![0, 64] x0 slices_S8192x128_o0_64_S8192x64 (ix2 p k) = x0 (ix2 p ⟨k.val + 64, by omega⟩) :=
  extractStridedSlice_apply _ x0 _ (ix2 p k) (ix2 p ⟨k.val + 64, by omega⟩) (fun a => by
    match a with
    | ⟨0, _⟩ => show p.val = 0 + p.val; omega
    | ⟨1, _⟩ => show k.val + 64 = 64 + k.val; omega)

/-- What the body stores at row `p`, column `q`. -/
theorem pay_apply (x0 : FVec Ideal S8192x128 .bf16) (x1 : FVec Ideal S128x64 .bf16) (x2 : FVec Ideal S64x64 .bf16)
    (x3 : FVec Ideal S1x64 .f32) (x4 : FVec Ideal S64x64 .bf16) (x5 : FVec Ideal S1x64 .f32) (p : Fin 8192) (q : Fin 64) :
    k0_pay1 (F := Ideal) x0 x1 x2 x3 x4 x5 (ix2 p q)
      = rowOut (fun k => x0 (ix2 p k)) x1 x2 x3 x4 x5 q := by
  unfold rowOut k0_pay1
  simp only [shapeCast_self]
  rw [addf_apply, LibConv.matmul_plain_zero_apply _ dot2_plain, broadcastTo_1b_ab_apply]
  congr 1
  refine Finset.sum_congr rfl fun r _ => ?_
  congr 1
  rw [truncf_apply, maximumf_apply, broadcast_apply, addf_apply, addf_apply,
    LibConv.matmul_plain_zero_apply _ dot1_plain, LibConv.matmul_plain_zero_apply _ dot2_plain, broadcastTo_1b_ab_apply]
  unfold hid
  have h0 : Scalar.ofBits (F := Ideal) .f32 0x00000000#32 = (0 : EReal) := Ideal.ofBits_zero_f32
  rw [h0]
  congr 3
  refine Finset.sum_congr rfl fun k _ => ?_
  rw [truncf_apply, mulf_apply, extf_apply, extf_apply, left_apply, right_apply]

/-- The same at any entry of the block. -/
theorem pay_at (x0 : FVec Ideal S8192x128 .bf16) (x1 : FVec Ideal S128x64 .bf16) (x2 : FVec Ideal S64x64 .bf16)
    (x3 : FVec Ideal S1x64 .f32) (x4 : FVec Ideal S64x64 .bf16) (x5 : FVec Ideal S1x64 .f32) (j : S8192x64.Idx) :
    k0_pay1 (F := Ideal) x0 x1 x2 x3 x4 x5 j = rowOut (fun k => x0 (ix2 (j 0) k)) x1 x2 x3 x4 x5 (j 1) := by
  exact (congrArg (k0_pay1 (F := Ideal) x0 x1 x2 x3 x4 x5) (eq_ix2 j)).trans (pay_apply x0 x1 x2 x3 x4 x5 (j 0) (j 1))

end Cert.KernelIdeal.Pay

end
-- ==== Proof.Blocks.lean ====
/-
  From the blocks to the whole output matrix.

  The grid has 64 points. At point `t` the body sees rows `8192 t … 8192 t + 8191` of the side-by-side rows and the
  five other arrays whole, and writes back rows `8192 t … 8192 t + 8191` of the output matrix. What it writes at a
  row is a function of that row alone (and of the whole weight and bias arrays), so every written block is a block
  of ONE function of the arrays the region finds; the 64 blocks tile the 524288 rows, so after the run the output
  matrix is that function everywhere.
-/
import proofs.«401041_j62775241998442_2_alg».proof.Proof.Gen.KernelIdeal.Frame
import proofs.«401041_j62775241998442_2_alg».proof.Proof.Payload
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The output matrix as one function of the six arrays the region finds: row by row, the body's formula. -/
def Gflat (A0 : FVec Ideal S524288x128 .bf16) (A1 : FVec Ideal S128x64 .bf16) (A2 : FVec Ideal S64x64 .bf16)
    (A3 : FVec Ideal S1x64 .f32) (A4 : FVec Ideal S64x64 .bf16) (A5 : FVec Ideal S1x64 .f32) : S524288x64.Idx → EReal :=
  fun i => Pay.rowOut (fun k => A0 (ix2 (i 0) k)) A1 A2 A3 A4 A5 (i 1)

theorem hz : (![0, 0] : Fin 2 → Nat) = fun _ => 0 := funext fun a => by fin_cases a <;> rfl

/-- The grid's points are below 64. -/
theorem t_lt (t : Fin cfg0.N) : t.val < 64 := lt_of_lt_of_eq t.isLt N_0

/-- Row `p` of point `t`'s block, as a row of the whole matrix. -/
def rowAt (t : Fin cfg0.N) (p : Fin 8192) : Fin 524288 :=
  ⟨t.val * 8192 + p.val, by have := t_lt t; have := p.isLt; omega⟩

/-- The printed index maps over the grid: the first input and the output move with the point along the rows; the
    other five inputs stay on their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Every block of rows is some point's. -/
theorem idx_onto : ∀ q0 : Fin 64, ∃ t : Fin cfg0.N, win0_6.index t = ![q0.val, 0] :=
  (by decide +kernel : ∀ q0 : Fin 64, ∃ t : Fin grid0.N, win0_6.index t = ![q0.val, 0])

/-! ## The input blocks

Each fact about which entries of its array a window's block holds is stated for ANY array of the window's shape: it is a
fact about the window's index map alone. -/

/-- Point `t`'s block of an array of the first input's shape holds its rows `8192 t + p`. -/
theorem read0 (t : Fin cfg0.N) (A : FVec Ideal S524288x128 .bf16) (y : S8192x128.Idx) :
    (((cfg0.win 0).blk t).view.read (Elt Ideal) A : FVec Ideal S8192x128 .bf16) y = A (ix2 (rowAt t (y 0)) (y 1)) := by
  obtain ⟨e0, e1, -⟩ := idx_facts t
  show A (((cfg0.win 0).blk t).view.emb y) = _
  refine congrArg A (funext fun a => Fin.ext ?_)
  match a with
  | ⟨0, _⟩ => show win0_0.index t (0 : Fin 2) * 8192 + 1 * (y 0).val = t.val * 8192 + (y 0).val; omega
  | ⟨1, _⟩ => show win0_0.index t (1 : Fin 2) * 128 + 1 * (y 1).val = (y 1).val; omega

/-- The second input's block is its whole array, at every point. -/
theorem read1 (t : Fin cfg0.N) (A : FVec Ideal S128x64 .bf16) : (((cfg0.win 1).blk t).view.read (Elt Ideal) A : FVec Ideal S128x64 .bf16) = A := by
  obtain ⟨-, -, e0, e1, -⟩ := idx_facts t
  funext y
  show A (((cfg0.win 1).blk t).view.emb y) = A y
  refine congrArg A (funext fun a => Fin.ext ?_)
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- The third input's block is its whole array. -/
theorem read2 (t : Fin cfg0.N) (A : FVec Ideal S64x64 .bf16) : (((cfg0.win 2).blk t).view.read (Elt Ideal) A : FVec Ideal S64x64 .bf16) = A := by
  obtain ⟨-, -, -, -, e0, e1, -⟩ := idx_facts t
  funext y
  show A (((cfg0.win 2).blk t).view.emb y) = A y
  refine congrArg A (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- The fourth input's block is its whole array. -/
theorem read3 (t : Fin cfg0.N) (A : FVec Ideal S1x64 .f32) : (((cfg0.win 3).blk t).view.read (Elt Ideal) A : FVec Ideal S1x64 .f32) = A := by
  obtain ⟨-, -, -, -, -, -, e0, e1, -⟩ := idx_facts t
  funext y
  show A (((cfg0.win 3).blk t).view.emb y) = A y
  refine congrArg A (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- The fifth input's block is its whole array. -/
theorem read4 (t : Fin cfg0.N) (A : FVec Ideal S64x64 .bf16) : (((cfg0.win 4).blk t).view.read (Elt Ideal) A : FVec Ideal S64x64 .bf16) = A := by
  obtain ⟨-, -, -, -, -, -, -, -, e0, e1, -⟩ := idx_facts t
  funext y
  show A (((cfg0.win 4).blk t).view.emb y) = A y
  refine congrArg A (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- The sixth input's block is its whole array. -/
theorem read5 (t : Fin cfg0.N) (A : FVec Ideal S1x64 .f32) : (((cfg0.win 5).blk t).view.read (Elt Ideal) A : FVec Ideal S1x64 .f32) = A := by
  obtain ⟨-, -, -, -, -, -, -, -, -, -, e0, e1, -⟩ := idx_facts t
  funext y
  show A (((cfg0.win 5).blk t).view.emb y) = A y
  refine congrArg A (funext fun a => Fin.ext ?_)
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- The first input's block at point `t` holds rows `8192 t + p` of the side-by-side rows. -/
theorem iblk0 (c : Dev nD) (t : Fin cfg0.N) (y : S8192x128.Idx) :
    (iblk m c 0 t : FVec Ideal S8192x128 .bf16) y = V m c main_v4 (ix2 (rowAt t (y 0)) (y 1)) :=
  read0 t (V m c main_v4) y

/-- The other five inputs' blocks are their whole arrays as the region finds them. -/
theorem iblk1 (c : Dev nD) (t : Fin cfg0.N) : (iblk m c 1 t : FVec Ideal S128x64 .bf16) = V m c main_v13 :=
  read1 t (V m c main_v13)
theorem iblk2 (c : Dev nD) (t : Fin cfg0.N) : (iblk m c 2 t : FVec Ideal S64x64 .bf16) = V m c main_v14 :=
  read2 t (V m c main_v14)
theorem iblk3 (c : Dev nD) (t : Fin cfg0.N) : (iblk m c 3 t : FVec Ideal S1x64 .f32) = V m c main_v17 :=
  read3 t (V m c main_v17)
theorem iblk4 (c : Dev nD) (t : Fin cfg0.N) : (iblk m c 4 t : FVec Ideal S64x64 .bf16) = V m c main_v16 :=
  read4 t (V m c main_v16)
theorem iblk5 (c : Dev nD) (t : Fin cfg0.N) : (iblk m c 5 t : FVec Ideal S1x64 .f32) = V m c main_v18 :=
  read5 t (V m c main_v18)

/-- Entry `j` of the output's block at point `t` is entry `(8192 t + j₀, j₁)` of the output matrix. -/
theorem emb6 (t : Fin cfg0.N) (j : S8192x64.Idx) :
    ((cfg0.win 6).blk t).view.emb j = ix2 (rowAt t (j 0)) (j 1) := by
  obtain ⟨-, -, -, -, -, -, -, -, -, -, -, -, e0, e1⟩ := idx_facts t
  funext a
  apply Fin.ext
  match a with
  | ⟨0, _⟩ => show win0_6.index t (0 : Fin 2) * 8192 + 1 * (j 0).val = t.val * 8192 + (j 0).val; omega
  | ⟨1, _⟩ => show win0_6.index t (1 : Fin 2) * 64 + 1 * (j 1).val = (j 1).val; omega

/-! ## What a point writes back -/

/-- The body's store at entry `j` of its block, for ANY six arrays and blocks related as the windows relate them:
    the one function `Gflat` of the arrays at row `8192 t + j₀`, column `j₁`. -/
theorem store_eq (t : Fin cfg0.N) (A0 : FVec Ideal S524288x128 .bf16) (A1 : FVec Ideal S128x64 .bf16)
    (A2 : FVec Ideal S64x64 .bf16) (A3 : FVec Ideal S1x64 .f32) (A4 : FVec Ideal S64x64 .bf16) (A5 : FVec Ideal S1x64 .f32)
    (x0 : FVec Ideal S8192x128 .bf16) (x1 : FVec Ideal S128x64 .bf16) (x2 : FVec Ideal S64x64 .bf16)
    (x3 : FVec Ideal S1x64 .f32) (x4 : FVec Ideal S64x64 .bf16) (x5 : FVec Ideal S1x64 .f32)
    (h0 : ∀ y : S8192x128.Idx, x0 y = A0 (ix2 (rowAt t (y 0)) (y 1)))
    (h1 : x1 = A1) (h2 : x2 = A2) (h3 : x3 = A3) (h4 : x4 = A4) (h5 : x5 = A5) (j : S8192x64.Idx) :
    k0_pay1 (F := Ideal) x0 x1 x2 x3 x4 x5 j = Gflat A0 A1 A2 A3 A4 A5 (ix2 (rowAt t (j 0)) (j 1)) := by
  subst h1 h2 h3 h4 h5
  refine (Pay.pay_at x0 x1 x2 x3 x4 x5 j).trans ?_
  have hrow : (fun k : Fin 128 => x0 (ix2 (j 0) k)) = fun k => A0 (ix2 (rowAt t (j 0)) k) :=
    funext fun k => h0 (ix2 (j 0) k)
  rw [hrow]
  rfl

/-- What the output window writes back of ANY block contents `P` is block `t` of ANY function `Gf` of the whole
    matrix that agrees with `P` entry by entry through the block's place in the matrix. -/
theorem cut_read_eq (t : Fin cfg0.N) (P : FVec Ideal S8192x64 .f32) (Gf : S524288x64.Idx → EReal)
    (h : ∀ j : S8192x64.Idx, P j = Gf (ix2 (rowAt t (j 0)) (j 1))) :
    (cfg0.win 6).cut (grid0.coords t) P = ((cfg0.win 6).blk t).view.read (Elt Ideal) Gf :=
  funext fun j => (h j).trans (congrArg Gf (emb6 t j).symm)

/-- What point `t` writes back is block `t` of the one function `Gflat` of the arrays the region finds. -/
theorem flushed_eq (c : Dev nD) (t : Fin cfg0.N) :
    (dats m 0 c).flushed 6 t = ((cfg0.win 6).blk t).view.read (Elt Ideal)
      (Gflat (V m c main_v4) (V m c main_v13) (V m c main_v14) (V m c main_v17) (V m c main_v16) (V m c main_v18)) := by
  show (cfg0.win 6).cut (grid0.coords t) ((dats m 0 c).after 6 t) = _
  rw [after0_6]
  unfold out0_6
  rw [View.canon_unit_zero hz]
  simp only [View.ld_unit_zero (S := S8192x128) hz, View.ld_unit_zero (S := S128x64) hz,
    View.ld_unit_zero (S := S64x64) hz, View.ld_unit_zero (S := S1x64) hz]
  exact cut_read_eq t
    (k0_pay1 (F := Ideal) (iblk m c 0 t) (iblk m c 1 t) (iblk m c 2 t) (iblk m c 3 t) (iblk m c 4 t) (iblk m c 5 t))
    (Gflat (V m c main_v4) (V m c main_v13) (V m c main_v14) (V m c main_v17) (V m c main_v16) (V m c main_v18))
    (fun j => store_eq t (V m c main_v4) (V m c main_v13) (V m c main_v14) (V m c main_v17) (V m c main_v16)
      (V m c main_v18) (iblk m c 0 t) (iblk m c 1 t) (iblk m c 2 t) (iblk m c 3 t) (iblk m c 4 t) (iblk m c 5 t)
      (iblk0 m c t) (iblk1 m c t) (iblk2 m c t) (iblk3 m c t) (iblk4 m c t) (iblk5 m c t) j)

/-! ## The cover -/

/-- An entry of the output matrix is in point `t`'s block iff each coordinate is in the block's range. -/
theorem mem_blk (t : Fin cfg0.N) (i : S524288x64.Idx) :
    i ∈ ((cfg0.win 6).blk t).view.set ↔ ∀ a : Fin 2, win0_6.index t a * S8192x64.size a ≤ (i a).val
      ∧ (i a).val < win0_6.index t a * S8192x64.size a + S8192x64.size a := by
  show i ∈ ((View.whole main_v19).slice (win0_6.rect t)).set ↔ _
  rw [View.set_slice_whole, Rect.mem_set_unit]
  exact Iff.rfl

/-- Every entry of the output matrix is in the block of the point its row over 8192 names. -/
theorem cover (i : S524288x64.Idx) :
    ∃ t : Fin cfg0.N, (cfg0.win 6).flush t = true ∧ i ∈ ((cfg0.win 6).blk t).view.set := by
  have hi0 : (i 0).val < 524288 := (i 0).isLt
  have hi1 : (i 1).val < 64 := (i 1).isLt
  obtain ⟨t, ht⟩ := idx_onto ⟨(i 0).val / 8192, by omega⟩
  have q0 : win0_6.index t (0 : Fin 2) = (i 0).val / 8192 := congrFun ht 0
  have q1 : win0_6.index t (1 : Fin 2) = 0 := congrFun ht 1
  refine ⟨t, flush0_6 t, ?_⟩
  rw [mem_blk]
  intro a
  match a with
  | ⟨0, _⟩ =>
    show win0_6.index t (0 : Fin 2) * 8192 ≤ (i 0).val ∧ (i 0).val < win0_6.index t (0 : Fin 2) * 8192 + 8192
    omega
  | ⟨1, _⟩ =>
    show win0_6.index t (1 : Fin 2) * 64 ≤ (i 1).val ∧ (i 1).val < win0_6.index t (1 : Fin 2) * 64 + 64
    omega

/-- The output matrix after the run. -/
theorem final (c : Dev nD) :
    (dats m 0 c).arrAt 6 cfg0.N
      = Gflat (V m c main_v4) (V m c main_v13) (V m c main_v14) (V m c main_v17) (V m c main_v16) (V m c main_v18) :=
  (dats m 0 c).arrAt_eq_of_cover 6
    (Gflat (V m c main_v4) (V m c main_v13) (V m c main_v14) (V m c main_v17) (V m c main_v16) (V m c main_v18))
    (fun t _ => flushed_eq m c t) cover

end Cert.KernelIdeal.KValue

end
-- ==== Proof.Windows.lean ====
/-
  What the kernel's region finds in each of its six input arrays, as a function of the program's arguments.

  Before the region the program prepares: the two endpoint rows of every pair side by side (a take of rows of the
  node table at the wrapped index words, with a fill where an index is out of range, then two changes of layout
  and a narrowing of format); the first layer's weights transposed, cut into four blocks of 64 rows, the first
  block plus the third stacked on the second minus the third; the fourth block; the second layer's weights
  transposed; and each bias as a one-row matrix.
-/
import proofs.«401041_j62775241998442_2_alg».proof.Proof.Gen.KernelIdeal.Frame
import Idealize.ShloMosaic.Lib.StableHlo.Run

noncomputable section

namespace Cert.KernelIdeal.Win

open Cert.KernelIdeal Cert.KernelIdeal.Gen Idealize.ShloMosaic Idealize.ShloMosaic.TcCoe Idealize.SL.Sem
open Idealize.ShloMosaic.StableHlo

section Terms

variable {F : FTy → Type} [FloatOps F]

/-- The first layer's weights transposed: 256 feature rows by 64 units. -/
def w1T (w1 : FVec F S64x256 .f32) : FVec F S256x64 .f32 :=
  transpose S256x64 [1, 0] w1 transposes_S64x256_S256x64_1_0

/-- The folded weights: block 0 plus block 2, stacked on block 1 minus block 2. -/
def wabTerm (w1 : FVec F S64x256 .f32) : FVec F S128x64 .bf16 :=
  truncf .bf16 (concatenate S128x64 0
    [⟨S64x64, addf (extractStridedSlice S64x64 ![0, 0] (w1T w1) slices_S256x64_S64x64_0_0)
                   (extractStridedSlice S64x64 ![128, 0] (w1T w1) slices_S256x64_S64x64_128_0)⟩,
     ⟨S64x64, subf (extractStridedSlice S64x64 ![64, 0] (w1T w1) slices_S256x64_S64x64_64_0)
                   (extractStridedSlice S64x64 ![128, 0] (w1T w1) slices_S256x64_S64x64_128_0)⟩]
    concatenates_S64x64_S64x64_S128x64_d0) bitsLt_bf16_f32

/-- Block 3 of the transposed weights: the product features' weights. -/
def wdTerm (w1 : FVec F S64x256 .f32) : FVec F S64x64 .bf16 :=
  truncf .bf16 (extractStridedSlice S64x64 ![192, 0] (w1T w1) slices_S256x64_S64x64_192_0) bitsLt_bf16_f32

/-- The second layer's weights transposed. -/
def w2tTerm (w2 : FVec F S64x64 .f32) : FVec F S64x64 .bf16 :=
  truncf .bf16 (transpose S64x64 [1, 0] w2 transposes_S64x64_S64x64_1_0) bitsLt_bf16_f32

/-- A bias as a one-row matrix. -/
def browTerm (b : FVec F S64 .f32) : FVec F S1x64 .f32 := shapeCast S1x64 b shapeCasts_S64_S1x64

/-- The index words in one line of 262144, each wrapped once by the table's length when negative, as a column. -/
def colTerm (pairs : IVec S131072x2 32) : IVec S262144x1 32 :=
  broadcastInDim S262144x1 ![0] bcast_S262144_S262144x1_0
    (select (cmpi .slt (shapeCast S262144 pairs shapeCasts_S131072x2_S262144)
              (broadcastInDim S262144 ![] bcast_S_S262144 (constantI S_ 32 0#32)))
            (addi (shapeCast S262144 pairs shapeCasts_S131072x2_S262144)
              (broadcastInDim S262144 ![] bcast_S_S262144 (constantI S_ 32 4096#32)))
            (shapeCast S262144 pairs shapeCasts_S131072x2_S262144))

/-- Which wrapped words are at least 0 and at most 4095. -/
def okTerm (pairs : IVec S131072x2 32) : IVec S262144 1 :=
  Host.reduce IntOp.andi
    (andi (cmpi .sge (colTerm pairs) (broadcastInDim S262144x1 ![] bcast_S_S262144x1 (constantI S_ 32 0#32)))
          (cmpi .sle (colTerm pairs) (broadcastInDim S262144x1 ![0, 1] bcast_S1x1_S262144x1_0_1
            (broadcastInDim S1x1 ![1] bcast_S1_S1x1_1 (constantI S1 32 4095#32)))))
    (constantI S_ 1 1#1) reducesTo_S262144x1_S262144_d1 h_S_

/-- The take: the node table's row at each wrapped word where the word is in the table, a fill elsewhere. -/
def takeTerm (z : FVec F S4x4096x64 .f32) (pairs : IVec S131072x2 32) : FVec F S4x262144x64 .f32 :=
  select (broadcastInDim S4x262144x64 ![1] bcast_S262144_S4x262144x64_1 (okTerm pairs))
    (Host.gather gather_S4x4096x64_S262144x1_S4x262144x64_02_1_n_n_1_1_4164 z (colTerm pairs))
    (broadcastInDim S4x262144x64 ![] bcast_S_S4x262144x64 (constant S_ .f32 0x7FC00000#32))

/-- The two endpoint rows of every pair side by side, one line per (batch, pair). -/
def zijTerm (z : FVec F S4x4096x64 .f32) (pairs : IVec S131072x2 32) : FVec F S524288x128 .bf16 :=
  shapeCast S524288x128
    (truncf .bf16 (shapeCast S4x131072x128 (takeTerm z pairs) shapeCasts_S4x262144x64_S4x131072x128) bitsLt_bf16_f32)
    shapeCasts_S4x131072x128_S524288x128

end Terms

variable {F : FTy → Type} [FloatOps F]
variable (m : (ℓ : Loc nD τ sig) → Buf (Elt F) ℓ)

set_option maxRecDepth 65536 in
set_option maxHeartbeats 1000000 in
/-- The region finds the side-by-side rows in its first array. -/
theorem V_v4 (c : Dev nD) :
    (V m c main_v4 : FVec F S524288x128 .bf16)
      = zijTerm (m ((c : Thread nD τ).loc main_arg0)) (m ((c : Thread nD τ).loc main_arg1)) := by
  dsimp only [V, V0]
  simp only [hostOps0, hostOps0_1, hostOps0_2, List.flatten_cons, List.flatten_nil, List.append_nil, List.cons_append,
    List.nil_append]
  after_results_simp
  -- each typed operation moves its operands and result along an equation between two spellings of one type
  simp only [cast_eq]
  rfl

/-- The region finds the folded weights in its second array. -/
theorem V_v13 (c : Dev nD) :
    (V m c main_v13 : FVec F S128x64 .bf16) = wabTerm (m ((c : Thread nD τ).loc main_arg2)) := by
  dsimp only [V, V0]
  simp only [hostOps0, hostOps0_1, hostOps0_2, List.flatten_cons, List.flatten_nil, List.append_nil, List.cons_append,
    List.nil_append]
  after_results
  rfl

/-- The region finds the product features' weights in its third array. -/
theorem V_v14 (c : Dev nD) :
    (V m c main_v14 : FVec F S64x64 .bf16) = wdTerm (m ((c : Thread nD τ).loc main_arg2)) := by
  dsimp only [V, V0]
  simp only [hostOps0, hostOps0_1, hostOps0_2, List.flatten_cons, List.flatten_nil, List.append_nil, List.cons_append,
    List.nil_append]
  after_results
  rfl

/-- The region finds the first bias as a row in its fourth array. -/
theorem V_v17 (c : Dev nD) :
    (V m c main_v17 : FVec F S1x64 .f32) = browTerm (m ((c : Thread nD τ).loc main_arg3)) := by
  dsimp only [V, V0]
  simp only [hostOps0, hostOps0_1, hostOps0_2, List.flatten_cons, List.flatten_nil, List.append_nil, List.cons_append,
    List.nil_append]
  after_results
  rfl

/-- The region finds the second layer's weights transposed in its fifth array. -/
theorem V_v16 (c : Dev nD) :
    (V m c main_v16 : FVec F S64x64 .bf16) = w2tTerm (m ((c : Thread nD τ).loc main_arg4)) := by
  dsimp only [V, V0]
  simp only [hostOps0, hostOps0_1, hostOps0_2, List.flatten_cons, List.flatten_nil, List.append_nil, List.cons_append,
    List.nil_append]
  after_results
  rfl

/-- The region finds the second bias as a row in its sixth array. -/
theorem V_v18 (c : Dev nD) :
    (V m c main_v18 : FVec F S1x64 .f32) = browTerm (m ((c : Thread nD τ).loc main_arg5)) := by
  dsimp only [V, V0]
  simp only [hostOps0, hostOps0_1, hostOps0_2, List.flatten_cons, List.flatten_nil, List.append_nil, List.cons_append,
    List.nil_append]
  after_results
  rfl

end Cert.KernelIdeal.Win

end
-- ==== Proof.Spec.lean ====
/-
  What both programs compute, as one function of the six argument arrays, index by index on the extended reals.

  For batch `b`, pair `e` and output column `s`: the two endpoints of pair `e` are rows of the node table `z[b]`,
  chosen by the two index words of `pairs[e]` (a negative word wraps once by the table's length 4096; the row is the
  word read signed and clamped into the table). With `zi`, `zj` those rows, the pair feature is the 256-vector
  `[zi, zj, zi - zj, zi * zj]`; the hidden layer is `max (feature · W1[r, ·] + b1[r]) 0` for each of 64 units `r`;
  the result is `hidden · W2[s, ·] + b2[s]`.
-/
import Idealize.ShloMosaic.PureOps.Ideal
import Idealize.ShloMosaic.Lib.ValueIdx

noncomputable section

open scoped BigOperators

namespace Cert.PairMlp

open Idealize.ShloMosaic Idealize.ShloMosaic.ValueIdx

/-- The node table: 4 batches of 4096 rows of 64 coordinates. -/
abbrev SZ : Shape := ⟨3, ![4, 4096, 64]⟩
/-- The pairs: 131072 pairs of two index words. -/
abbrev SP : Shape := ⟨2, ![131072, 2]⟩
/-- The first layer's weights: 64 units by 256 features. -/
abbrev SW1 : Shape := ⟨2, ![64, 256]⟩
/-- A bias: 64 entries. -/
abbrev SB : Shape := ⟨1, ![64]⟩
/-- The second layer's weights: 64 outputs by 64 units. -/
abbrev SW2 : Shape := ⟨2, ![64, 64]⟩
/-- The result: 4 batches of 131072 pairs of 64 outputs. -/
abbrev SO : Shape := ⟨3, ![4, 131072, 64]⟩

/-- An index word with a negative value wrapped once by the table's length. -/
def wrapWord (p : BitVec 32) : BitVec 32 :=
  Scalar.select (IntOp.cmpi .slt p 0#32) (IntOp.addi p 4096#32) p

/-- The row of the table an index word selects: the wrapped word read signed and clamped into `[0, 4095]`. -/
def rowOf (p : BitVec 32) : Fin 4096 := ⟨min (wrapWord p).toInt.toNat 4095, by omega⟩

/-- Endpoint `k` of pair `e` in batch `b`: a row of the node table. -/
def node (z : SZ.Idx → EReal) (pairs : SP.Idx → BitVec 32) (b : Fin 4) (e : Fin 131072) (k : Fin 2) (d : Fin 64) : EReal :=
  z (ix3 b (rowOf (pairs (ix2 e k))) d)

/-- The pair feature `[zi, zj, zi - zj, zi * zj]` at position `f` of 256. -/
def feat (zi zj : Fin 64 → EReal) (f : Fin 256) : EReal :=
  if h : f.val < 64 then zi ⟨f.val, h⟩
  else if h2 : f.val < 128 then zj ⟨f.val - 64, by omega⟩
  else if h3 : f.val < 192 then zi ⟨f.val - 128, by omega⟩ - zj ⟨f.val - 128, by omega⟩
  else zi ⟨f.val - 192, by omega⟩ * zj ⟨f.val - 192, by omega⟩

/-- Hidden unit `r`: the feature against row `r` of `W1`, plus the bias, cut off below at zero. -/
def hidden (zi zj : Fin 64 → EReal) (W1 : SW1.Idx → EReal) (b1 : SB.Idx → EReal) (r : Fin 64) : EReal :=
  max (∑ f : Fin 256, feat zi zj f * W1 (ix2 r f) + b1 (ix1 r)) 0

/-- Output `s`: the hidden layer against row `s` of `W2`, plus the bias. -/
def outAt (zi zj : Fin 64 → EReal) (W1 : SW1.Idx → EReal) (b1 : SB.Idx → EReal) (W2 : SW2.Idx → EReal)
    (b2 : SB.Idx → EReal) (s : Fin 64) : EReal :=
  ∑ r : Fin 64, hidden zi zj W1 b1 r * W2 (ix2 s r) + b2 (ix1 s)

/-- The whole result array. -/
def G (z : SZ.Idx → EReal) (pairs : SP.Idx → BitVec 32) (W1 : SW1.Idx → EReal) (b1 : SB.Idx → EReal)
    (W2 : SW2.Idx → EReal) (b2 : SB.Idx → EReal) : SO.Idx → EReal :=
  fun i => outAt (node z pairs (i 0) (i 1) 0) (node z pairs (i 0) (i 1) 1) W1 b1 W2 b2 (i 2)

end Cert.PairMlp

end
-- ==== Proof.LibReal.lean ====
/-
  Reals inside the extended reals, and the finiteness precondition read back.

  General facts, independent of any program: the cast of a finite sum of reals; the f32 pattern of -∞; an extended
  real whose absolute value is below +∞ is a real; and one conjunct of a printed "all inputs finite" precondition —
  an and-reduce to a scalar of the elementwise test |x| < +∞ that came out 1 — makes every entry of the array a real.
-/
import Idealize.ShloMosaic.PureOps.Ideal
import Idealize.ShloMosaic.PureOps.Ideal.Laws
import Idealize.ShloMosaic.Lib.ReduceAll
import Idealize.ShloMosaic.Lib.Pipeline.Value
import Idealize.ShloMosaic.Lib.ValueIdx

noncomputable section

open scoped BigOperators

namespace Cert.LibReal

open Idealize.ShloMosaic Idealize.ShloMosaic.ValueIdx

/-- An extended real that is a real. -/
def IsReal (x : EReal) : Prop := ∃ r : ℝ, x = (r : EReal)

/-- The cast of a finite sum of reals is the sum of the casts. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The f32 pattern of -∞ is the bottom of the extended reals. -/
theorem ofBits_negInf_f32 : Ideal.ofBits .f32 0xFF800000#32 = ⊥ := by simp [Ideal.ofBits, Ideal.ieee]

/-- The f32 pattern of +∞ is the top of the extended reals. -/
theorem ofBits_posInf_f32 : Ideal.ofBits .f32 0x7F800000#32 = ⊤ := by simp [Ideal.ofBits, Ideal.ieee]

/-- The scalar shape has one index. -/
instance : Subsingleton (⟨0, ![]⟩ : Shape).Idx := ⟨fun a b => funext fun d => d.elim0⟩

/-- An extended real whose absolute value is below +∞ is a real. -/
theorem isReal_of_abs_lt_top (x : EReal) (h : max x (-x) < ⊤) : IsReal x := by
  induction x using EReal.rec with
  | bot => simp at h
  | top => simp at h
  | coe r => exact ⟨r, rfl⟩

/-- One conjunct of a finiteness precondition: an and-reduce to a scalar of "|x| < +∞" that is 1 makes every entry of
    x a real, at any shape and whichever axes the reduce names. -/
theorem isReal_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ix0 = 1#1) (i : s.Idx) : IsReal (x i) := by
  have h1 := Host.reduce_andi_all _ _ hr hu ix0 e i
  rw [cmpf_apply, broadcastInDim_apply ![] hb _ i ix0 (fun a => a.elim0)] at h1
  have h3 : Ideal.cmp .olt (max (x i) (-(x i))) (Ideal.ofBits .f32 0x7F800000#32) = 1#1 := h1
  rw [ofBits_posInf_f32] at h3
  refine isReal_of_abs_lt_top _ ?_
  by_contra hn
  unfold Ideal.cmp at h3
  simp [hn] at h3

end Cert.LibReal

end
-- ==== Proof.Law.lean ====
/-
  The first layer, two ways. With `zi`, `zj` the two endpoint rows and `w` one row of the first layer's weights
  (256 entries, in four blocks of 64: for `zi`, for `zj`, for the difference, for the product),

    feature · w = zi · wa + zj · wb + (zi - zj) · wc + (zi * zj) · wd
                = zi · (wa + wc) + zj · (wb - wc) + (zi * zj) · wd,

  the second line being the sum over the 128 entries of the two rows side by side against the folded weights, plus
  the sum over the 64 products. The step is distributivity, which holds on the reals and fails at infinities, so
  the rows and the weights are taken to be reals.
-/
import proofs.«401041_j62775241998442_2_alg».proof.Proof.Spec
import proofs.«401041_j62775241998442_2_alg».proof.Proof.LibReal

noncomputable section

open scoped BigOperators

namespace Cert.PairMlp

open Idealize.ShloMosaic Idealize.ShloMosaic.ValueIdx Cert.LibReal

/-- The two endpoint rows side by side: 128 entries. -/
def catRow (zi zj : Fin 64 → EReal) (k : Fin 128) : EReal :=
  if h : k.val < 64 then zi ⟨k.val, h⟩ else zj ⟨k.val - 64, by omega⟩

/-- The folded weights: the `zi` block plus the difference block, then the `zj` block minus the difference block. -/
def foldW (w : Fin 256 → EReal) (k : Fin 128) : EReal :=
  if h : k.val < 64 then w ⟨k.val, by omega⟩ + w ⟨k.val + 128, by omega⟩
  else w ⟨k.val, by omega⟩ - w ⟨k.val + 64, by omega⟩

/-- A sum over 128 indices is the sum over its lower half plus the sum over its upper half. -/
private theorem sum_fin128 {M : Type*} [AddCommMonoid M] (g : Fin 128 → M) :
    ∑ k : Fin 128, g k
      = ∑ d : Fin 64, g ⟨d.val, by omega⟩ + ∑ d : Fin 64, g ⟨d.val + 64, by omega⟩ := by
  refine (Fin.sum_univ_add (a := 64) (b := 64) g).trans ?_
  refine congrArg₂ (· + ·) (Finset.sum_congr rfl fun d _ => congrArg g (Fin.ext ?_))
    (Finset.sum_congr rfl fun d _ => congrArg g (Fin.ext ?_))
  · simp only [Fin.coe_castAdd]
  · simp only [Fin.coe_natAdd]
    omega

/-- A sum over 256 indices is the sum of the sums over its four blocks of 64. -/
private theorem sum_fin256 {M : Type*} [AddCommMonoid M] (g : Fin 256 → M) :
    ∑ f : Fin 256, g f
      = ∑ d : Fin 64, g ⟨d.val, by omega⟩ + ∑ d : Fin 64, g ⟨d.val + 64, by omega⟩
        + ∑ d : Fin 64, g ⟨d.val + 128, by omega⟩ + ∑ d : Fin 64, g ⟨d.val + 192, by omega⟩ := by
  refine (Fin.sum_univ_add (a := 128) (b := 128) g).trans ?_
  rw [sum_fin128 (fun i => g (Fin.castAdd 128 i)), sum_fin128 (fun i => g (Fin.natAdd 128 i)), ← add_assoc]
  refine congrArg₂ (· + ·) (congrArg₂ (· + ·) (congrArg₂ (· + ·) ?_ ?_) ?_) ?_ <;>
    refine Finset.sum_congr rfl fun d _ => congrArg g (Fin.ext ?_) <;>
    simp only [Fin.coe_castAdd, Fin.coe_natAdd] <;> omega

/-- The lower half of the two rows side by side is the first row. -/
private theorem catRow_lo (zi zj : Fin 64 → EReal) (d : Fin 64) :
    catRow zi zj ⟨d.val, by omega⟩ = zi d := by
  simp [catRow]

/-- The upper half of the two rows side by side is the second row. -/
private theorem catRow_hi (zi zj : Fin 64 → EReal) (d : Fin 64) :
    catRow zi zj ⟨d.val + 64, by omega⟩ = zj d := by
  simp [catRow]

/-- The lower half of the folded weights: the first block plus the difference block. -/
private theorem foldW_lo (w : Fin 256 → EReal) (d : Fin 64) :
    foldW w ⟨d.val, by omega⟩ = w ⟨d.val, by omega⟩ + w ⟨d.val + 128, by omega⟩ := by
  simp [foldW]

/-- The upper half of the folded weights: the second block minus the difference block. -/
private theorem foldW_hi (w : Fin 256 → EReal) (d : Fin 64) :
    foldW w ⟨d.val + 64, by omega⟩ = w ⟨d.val + 64, by omega⟩ - w ⟨d.val + 128, by omega⟩ := by
  simp [foldW]

/-- The first block of the feature is the first row. -/
private theorem feat_blk0 (zi zj : Fin 64 → EReal) (d : Fin 64) :
    feat zi zj ⟨d.val, by omega⟩ = zi d := by
  simp [feat]

/-- The second block of the feature is the second row. -/
private theorem feat_blk1 (zi zj : Fin 64 → EReal) (d : Fin 64) :
    feat zi zj ⟨d.val + 64, by omega⟩ = zj d := by
  simp [feat]

/-- The third block of the feature is the difference of the rows. -/
private theorem feat_blk2 (zi zj : Fin 64 → EReal) (d : Fin 64) :
    feat zi zj ⟨d.val + 128, by omega⟩ = zi d - zj d := by
  have h3 : d.val + 128 < 192 := by omega
  simp [feat, h3]

/-- The fourth block of the feature is the product of the rows. -/
private theorem feat_blk3 (zi zj : Fin 64 → EReal) (d : Fin 64) :
    feat zi zj ⟨d.val + 192, by omega⟩ = zi d * zj d := by
  have h1 : ¬ (d.val + 192 < 64) := by omega
  have h2 : ¬ (d.val + 192 < 128) := by omega
  simp [feat, h1, h2]

/-- The two arrangements of the first layer's sum agree when rows and weights are reals. -/
theorem firstLayer_law (zi zj : Fin 64 → EReal) (w : Fin 256 → EReal)
    (hzi : ∀ d, IsReal (zi d)) (hzj : ∀ d, IsReal (zj d)) (hw : ∀ f, IsReal (w f)) :
    (∑ k : Fin 128, catRow zi zj k * foldW w k) + (∑ k : Fin 64, (zi k * zj k) * w ⟨k.val + 192, by omega⟩)
      = ∑ f : Fin 256, feat zi zj f * w f := by
  -- Name the real behind every entry, so that all three arrays are casts of real-valued ones.
  have hzi' : ∀ d, ∃ r : ℝ, zi d = (r : EReal) := hzi
  have hzj' : ∀ d, ∃ r : ℝ, zj d = (r : EReal) := hzj
  have hw' : ∀ f, ∃ r : ℝ, w f = (r : EReal) := hw
  choose zir hzir using hzi'
  choose zjr hzjr using hzj'
  choose wr hwr using hw'
  obtain rfl : zi = fun d => ((zir d : ℝ) : EReal) := funext hzir
  obtain rfl : zj = fun d => ((zjr d : ℝ) : EReal) := funext hzjr
  obtain rfl : w = fun f => ((wr f : ℝ) : EReal) := funext hwr
  -- Cut both long sums into blocks of 64 and read each block off the definitions.
  rw [sum_fin128, sum_fin256]
  simp only [catRow_lo, catRow_hi, foldW_lo, foldW_hi, feat_blk0, feat_blk1, feat_blk2, feat_blk3]
  -- Every term is now a cast of a real expression: move the cast outside, leaving one identity between reals.
  simp only [← EReal.coe_mul, ← EReal.coe_add, ← EReal.coe_sub, ← coe_sum]
  rw [EReal.coe_eq_coe_iff]
  -- On the reals: gather the blocks under one sum over the 64 coordinates; each coordinate is distributivity.
  simp only [← Finset.sum_add_distrib]
  refine Finset.sum_congr rfl fun d _ => ?_
  ring

end Cert.PairMlp

end
-- ==== Proof.Words.lean ====
/-
  Index words in range. An index word `p` is in range when it is at least 0 and below 4096 as a signed word; then
  it is below 4096 as a natural number, wrapping negative words leaves it alone, the row it selects is itself, and the
  test "at least 0 and at most 4095" of the wrapped word comes out set.
-/
import proofs.«401041_j62775241998442_2_alg».proof.Proof.Spec
import Idealize.ShloMosaic.Lib.StableHlo.Predicate

noncomputable section

namespace Cert.PairMlp

open Idealize.ShloMosaic Idealize.ShloMosaic.ValueIdx

/-- An index word that is at least 0 and below 4096, as the two signed comparisons that say so. -/
def InRange (p : BitVec 32) : Prop := IntOp.cmpi .sge p 0#32 = 1#1 ∧ IntOp.cmpi .slt p 4096#32 = 1#1

/-- A word that is at least 0 as a signed word has its top bit clear: it is below 2³¹ as a natural number. -/
private theorem toNat_lt_of_sge_zero {p : BitVec 32} (h : IntOp.cmpi .sge p 0#32 = 1#1) : p.toNat < 2 ^ 31 := by
  unfold IntOp.cmpi at h
  rw [StableHlo.Predicate.ofBool_eq_one_iff] at h
  have h1 : (0#32 : BitVec 32).toInt ≤ p.toInt := BitVec.sle_iff_toInt_le.mp h
  have h0 : (0#32 : BitVec 32).toInt = 0 := by decide
  rw [h0, BitVec.toInt_eq_toNat_cond] at h1
  have hp := p.isLt
  split at h1 <;> omega

/-- In range, the word is below 4096 as a natural number. -/
theorem InRange.toNat_lt {p : BitVec 32} (h : InRange p) : p.toNat < 4096 := by
  have hp : p.toNat < 2 ^ 31 := toNat_lt_of_sge_zero h.1
  have hc : (4096#32 : BitVec 32).toNat = 4096 := by decide
  have h2 := (StableHlo.Predicate.slt_iff_toNat hp (by rw [hc]; omega)).mp h.2
  omega

/-- In range, wrapping changes nothing. -/
theorem InRange.wrapWord_eq {p : BitVec 32} (h : InRange p) : wrapWord p = p := by
  have hp : p.toNat < 2 ^ 31 := toNat_lt_of_sge_zero h.1
  have hz : (0#32 : BitVec 32).toNat = 0 := by decide
  -- the word is not below 0: the comparison "below 0" is not set, so the choice keeps the word
  have hn : ¬ IntOp.cmpi .slt p 0#32 = 1#1 := by
    intro hc
    have := (StableHlo.Predicate.slt_iff_toNat hp (by rw [hz]; omega)).mp hc
    omega
  unfold wrapWord
  rw [eq_zero_of_ne_one hn, select_zero]

/-- In range, the selected row is the word's value. -/
theorem InRange.rowOf_val {p : BitVec 32} (h : InRange p) : (rowOf p).val = p.toNat := by
  have hp : p.toNat < 2 ^ 31 := toNat_lt_of_sge_zero h.1
  have hlt := h.toNat_lt
  unfold rowOf
  simp only [h.wrapWord_eq, StableHlo.Predicate.toInt_eq_toNat_of_lt hp, Int.toNat_natCast]
  exact Nat.min_eq_left (by omega)

/-- In range, the wrapped word passes the test "at least 0 and at most 4095". -/
theorem InRange.mask {p : BitVec 32} (h : InRange p) :
    IntOp.cmpi .sge (wrapWord p) 0#32 = 1#1 ∧ IntOp.cmpi .sle (wrapWord p) 4095#32 = 1#1 := by
  have hp : p.toNat < 2 ^ 31 := toNat_lt_of_sge_zero h.1
  have hlt := h.toNat_lt
  have hc : (4095#32 : BitVec 32).toNat = 4095 := by decide
  rw [h.wrapWord_eq]
  refine ⟨h.1, (StableHlo.Predicate.sle_iff_toNat hp (by rw [hc]; omega)).mpr ?_⟩
  rw [hc]; omega

end Cert.PairMlp

end
-- ==== Proof.LibAndReduce.lean ====
/-
  An and-reduce of an array of one-bit words that are all 1.

  General facts, independent of any program: a left fold by `and` that starts at 1 and meets only 1s ends at 1; so a
  `stablehlo.reduce` by `and` from the constant 1, over whichever axes, of an array whose every entry is 1 is 1 at
  every index of its result. (The library has the other direction: a reduce that came out 1 met only 1s.) This is what
  a range test `all(lo <= idx <= hi)` along an axis comes to when every index is known to be in range, for instance
  the test a take in fill mode makes before it chooses between the gathered row and its fill.
-/
import Idealize.ShloMosaic.PureOps.Reduce
import Idealize.ShloMosaic.Lib.ReduceAll

namespace Cert.LibAndReduce

open Idealize.ShloMosaic

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- An and-reduce, from initial values that are 1, of an array whose every entry is 1 is 1 at every index of the
    result, whatever the shapes and the reduced axes. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  exact foldl_andi_one (fun n => x (s.rowMajor.symm n)) (fun n => hx _) _

end Cert.LibAndReduce
-- ==== Proof.WindowsAt.lean ====
/-
  The region's six input arrays, entry by entry, in the specification's words.

  The folded weights at row `k`, unit `r` are `foldW` of row `r` of the first layer's weights; the product block's
  weights at `(k, r)` are that row's entry `k + 192`; the transposed second weights at `(r, s)` are the weights at
  `(s, r)`; a bias row at `(0, r)` is the bias at `r`. And when every index word is in range, line `b · 131072 + e`
  of the side-by-side rows is endpoint 0 of pair `e` in batch `b` followed by endpoint 1: each wrapped word passes
  the range test, so the take keeps the gathered row, and the gathered row is the row the word selects.
-/
import proofs.«401041_j62775241998442_2_alg».proof.Proof.Windows
import proofs.«401041_j62775241998442_2_alg».proof.Proof.Law
import proofs.«401041_j62775241998442_2_alg».proof.Proof.Words
import proofs.«401041_j62775241998442_2_alg».proof.Proof.LibConv
import proofs.«401041_j62775241998442_2_alg».proof.Proof.LibAndReduce
import Idealize.ShloMosaic.Lib.Pipeline.Value
import Idealize.ShloMosaic.Lib.ValueLayout
import Idealize.ShloMosaic.Lib.ValueIdx

noncomputable section

open scoped BigOperators

namespace Cert.KernelIdeal.Win

open Cert.KernelIdeal Cert.KernelIdeal.Gen Idealize.ShloMosaic Idealize.ShloMosaic.ValueIdx Cert.PairMlp Cert.LibAndReduce

/-! ## The weights and the biases -/

/-- A block of 64 rows of the transposed first weights, starting at row `o`: at `(k, r)` it is the weights' row `r`
    at feature `o + k`. -/
theorem w1T_slice (w1 : FVec Ideal S64x256 .f32) (o : Nat) (h : S256x64.Slices ![o, 0] S64x64) (k r : Fin 64)
    (f : Fin 256) (hf : f.val = o + k.val) :
    extractStridedSlice S64x64 ![o, 0] (w1T w1) h (ix2 k r) = w1 (ix2 r f) := by
  rw [extractStridedSlice_apply _ _ h (ix2 k r) (ix2 f r) (fun a => by
    match a with
    | ⟨0, _⟩ => exact hf
    | ⟨1, _⟩ => show r.val = 0 + r.val; omega)]
  unfold w1T
  exact transpose_ix2_apply _ _ f r

/-- The folded weights, entry by entry. -/
theorem wab_apply (w1 : FVec Ideal S64x256 .f32) (k : Fin 128) (r : Fin 64) :
    wabTerm w1 (ix2 k r) = foldW (fun f => w1 (ix2 r f)) k := by
  unfold wabTerm foldW
  rw [truncf_apply]
  by_cases hk : k.val < 64
  · rw [dif_pos hk,
      concatenate_pair_apply_left (t := S128x64) (s₁ := S64x64) (s₂ := S64x64) (0 : Fin 2) _ _
        concatenates_S64x64_S64x64_S128x64_d0 (ix2 k r) rfl
        (ix2 (⟨k.val, hk⟩ : Fin 64) r) (fun b => by match b with | ⟨0, _⟩ => rfl | ⟨1, _⟩ => rfl),
      addf_apply,
      w1T_slice w1 0 _ ⟨k.val, hk⟩ r ⟨k.val, by omega⟩ (by show k.val = 0 + k.val; omega),
      w1T_slice w1 128 _ ⟨k.val, hk⟩ r ⟨k.val + 128, by omega⟩ (by show k.val + 128 = 128 + k.val; omega)]
  · rw [dif_neg hk,
      concatenate_pair_apply_right (t := S128x64) (s₁ := S64x64) (s₂ := S64x64) (0 : Fin 2) _ _
        concatenates_S64x64_S64x64_S128x64_d0 (ix2 k r) rfl rfl
        (ix2 (⟨k.val - 64, by omega⟩ : Fin 64) r)
        (fun b hb => by match b with | ⟨0, _⟩ => exact absurd rfl hb | ⟨1, _⟩ => rfl)
        (by show k.val - 64 + 64 = k.val; omega),
      subf_apply,
      w1T_slice w1 64 _ ⟨k.val - 64, by omega⟩ r ⟨k.val, by omega⟩ (by show k.val = 64 + (k.val - 64); omega),
      w1T_slice w1 128 _ ⟨k.val - 64, by omega⟩ r ⟨k.val + 64, by omega⟩
        (by show k.val + 64 = 128 + (k.val - 64); omega)]

/-- The product block's weights, entry by entry. -/
theorem wd_apply (w1 : FVec Ideal S64x256 .f32) (k r : Fin 64) :
    wdTerm w1 (ix2 k r) = w1 (ix2 r ⟨k.val + 192, by omega⟩) := by
  unfold wdTerm
  rw [truncf_apply, w1T_slice w1 192 _ k r ⟨k.val + 192, by omega⟩ (by show k.val + 192 = 192 + k.val; omega)]

/-- The transposed second weights, entry by entry. -/
theorem w2t_apply (w2 : FVec Ideal S64x64 .f32) (r s : Fin 64) : w2tTerm w2 (ix2 r s) = w2 (ix2 s r) := by
  unfold w2tTerm
  rw [truncf_apply]
  exact transpose_ix2_apply _ _ r s

/-- A bias row, entry by entry. -/
theorem brow_apply (b : FVec Ideal S64 .f32) (r : Fin 64) : browTerm b (ix2 (0 : Fin 1) r) = b (ix1 r) := by
  unfold browTerm
  exact shapeCast_a_1a_apply _ _ 0 r

/-! ## The index words -/

/-- The wrapped word on line `n = 2 e + j` is the wrapped word `j` of pair `e`. -/
theorem col_apply (pairs : IVec S131072x2 32) (e : Fin 131072) (j : Fin 2) (n : Fin 262144)
    (hn : n.val = e.val * 2 + j.val) : colTerm pairs (ix2 n (0 : Fin 1)) = wrapWord (pairs (ix2 e j)) := by
  unfold colTerm wrapWord
  rw [broadcastInDim_apply _ bcast_S262144_S262144x1_0 _ (ix2 n (0 : Fin 1)) (ix1 n) (fun a => by
    match a with
    | ⟨0, _⟩ => show n.val = if (262144 : Nat) = 1 then 0 else n.val; rw [if_neg (by decide)])]
  have hp : shapeCast S262144 pairs shapeCasts_S131072x2_S262144 (ix1 n) = pairs (ix2 e j) :=
    shapeCast_apply pairs _ (ix1 n) (ix2 e j) (by
      rw [Shape.rowMajor_val_two, Shape.rowMajor_val_one]
      show e.val * 2 + j.val = n.val
      omega)
  have hc : ∀ v : BitVec 32, broadcastInDim S262144 ![] bcast_S_S262144 (constantI S_ 32 v) (ix1 n) = v := fun v =>
    broadcastInDim_apply _ bcast_S_S262144 _ (ix1 n) ix0 (fun a => a.elim0)
  rw [select_apply]
  show Scalar.select
      (IntOp.cmpi .slt (shapeCast S262144 pairs shapeCasts_S131072x2_S262144 (ix1 n))
        (broadcastInDim S262144 ![] bcast_S_S262144 (constantI S_ 32 0#32) (ix1 n)))
      (IntOp.addi (shapeCast S262144 pairs shapeCasts_S131072x2_S262144 (ix1 n))
        (broadcastInDim S262144 ![] bcast_S_S262144 (constantI S_ 32 4096#32) (ix1 n)))
      (shapeCast S262144 pairs shapeCasts_S131072x2_S262144 (ix1 n)) = _
  rw [hp, hc, hc]

/-- With every index word in range, every line passes the range test. -/
theorem ok_apply (pairs : IVec S131072x2 32) (hall : ∀ i, InRange (pairs i)) (n : Fin 262144) :
    okTerm pairs (ix1 n) = 1#1 := by
  unfold okTerm
  refine reduce_andi_one _ _ _ _ (fun i => ?_) (fun _ => rfl) _
  obtain ⟨n', u, rfl⟩ : ∃ (n' : Fin 262144) (u : Fin 1), i = ix2 n' u := ⟨i 0, i 1, eq_ix2 i⟩
  obtain rfl : u = 0 := Fin.ext (by omega)
  have hcol := col_apply pairs ⟨n'.val / 2, by omega⟩ ⟨n'.val % 2, by omega⟩ n'
    (by show n'.val = n'.val / 2 * 2 + n'.val % 2; omega)
  have hm := (hall (ix2 (⟨n'.val / 2, by omega⟩ : Fin 131072) (⟨n'.val % 2, by omega⟩ : Fin 2))).mask
  have h0 : broadcastInDim S262144x1 ![] bcast_S_S262144x1 (constantI S_ 32 0#32) (ix2 n' (0 : Fin 1)) = 0#32 :=
    broadcastInDim_apply _ bcast_S_S262144x1 _ (ix2 n' (0 : Fin 1)) ix0 (fun a => a.elim0)
  have h1 : broadcastInDim S262144x1 ![0, 1] bcast_S1x1_S262144x1_0_1
      (broadcastInDim S1x1 ![1] bcast_S1_S1x1_1 (constantI S1 32 4095#32)) (ix2 n' (0 : Fin 1)) = 4095#32 := by
    rw [broadcastInDim_apply _ bcast_S1x1_S262144x1_0_1 _ (ix2 n' (0 : Fin 1)) (ix2 (0 : Fin 1) (0 : Fin 1)) (fun a => by
      match a with
      | ⟨0, _⟩ => rfl
      | ⟨1, _⟩ => rfl),
      broadcastInDim_apply _ bcast_S1_S1x1_1 _ (ix2 (0 : Fin 1) (0 : Fin 1)) (ix1 (0 : Fin 1)) (fun a => by
      match a with
      | ⟨0, _⟩ => rfl)]
    rfl
  show IntOp.andi
      (IntOp.cmpi .sge (colTerm pairs (ix2 n' (0 : Fin 1)))
        (broadcastInDim S262144x1 ![] bcast_S_S262144x1 (constantI S_ 32 0#32) (ix2 n' (0 : Fin 1))))
      (IntOp.cmpi .sle (colTerm pairs (ix2 n' (0 : Fin 1)))
        (broadcastInDim S262144x1 ![0, 1] bcast_S1x1_S262144x1_0_1
          (broadcastInDim S1x1 ![1] bcast_S1_S1x1_1 (constantI S1 32 4095#32)) (ix2 n' (0 : Fin 1)))) = 1#1
  rw [hcol, h0, h1, hm.1, hm.2]
  rfl

/-! ## The take -/

/-- Which row of the node table line `n` of the take reads, coordinate by coordinate. -/
abbrev GD := gather_S4x4096x64_S262144x1_S4x262144x64_02_1_n_n_1_1_4164

theorem opIdx_0 (col : IVec S262144x1 32) (b : Fin 4) (n : Fin 262144) (d : Fin 64) :
    (GD.operandIdx (ix3 b n d) col 0).val = b.val := by
  show GD.start (ix3 b n d) col 0 + GD.batchCoord (ix3 b n d) 0 + GD.offCoord (ix3 b n d) 0 = b.val
  unfold GatherDims.start GatherDims.batchCoord GatherDims.offCoord
  rw [dif_neg (show ¬(0 : Fin S4x4096x64.rank) ∈ GD.startIndexMap by decide),
    dif_neg (show ¬(0 : Fin S4x4096x64.rank) ∈ GD.operandBatchingDims by decide),
    dif_pos (show (0 : Fin S4x4096x64.rank) ∈ GD.sKept by decide)]
  have e : (GD.offsetDims[List.idxOf (0 : Fin S4x4096x64.rank) GD.sKept]'(by decide)) = (0 : Fin S4x262144x64.rank) := by
    decide
  simp only [e, Nat.zero_add]
  rfl

theorem opIdx_2 (col : IVec S262144x1 32) (b : Fin 4) (n : Fin 262144) (d : Fin 64) :
    (GD.operandIdx (ix3 b n d) col 2).val = d.val := by
  show GD.start (ix3 b n d) col 2 + GD.batchCoord (ix3 b n d) 2 + GD.offCoord (ix3 b n d) 2 = d.val
  unfold GatherDims.start GatherDims.batchCoord GatherDims.offCoord
  rw [dif_neg (show ¬(2 : Fin S4x4096x64.rank) ∈ GD.startIndexMap by decide),
    dif_neg (show ¬(2 : Fin S4x4096x64.rank) ∈ GD.operandBatchingDims by decide),
    dif_pos (show (2 : Fin S4x4096x64.rank) ∈ GD.sKept by decide)]
  have e : (GD.offsetDims[List.idxOf (2 : Fin S4x4096x64.rank) GD.sKept]'(by decide)) = (2 : Fin S4x262144x64.rank) := by
    decide
  simp only [e, Nat.zero_add]
  rfl

theorem opIdx_1 (col : IVec S262144x1 32) (b : Fin 4) (n : Fin 262144) (d : Fin 64) :
    (GD.operandIdx (ix3 b n d) col 1).val = min (col (ix2 n (0 : Fin 1))).toInt.toNat 4095 := by
  show GD.start (ix3 b n d) col 1 + GD.batchCoord (ix3 b n d) 1 + GD.offCoord (ix3 b n d) 1 = _
  unfold GatherDims.start GatherDims.batchCoord GatherDims.offCoord
  rw [dif_pos (show (1 : Fin S4x4096x64.rank) ∈ GD.startIndexMap by decide),
    dif_neg (show ¬(1 : Fin S4x4096x64.rank) ∈ GD.operandBatchingDims by decide),
    dif_neg (show ¬(1 : Fin S4x4096x64.rank) ∈ GD.sKept by decide)]
  have e : GD.siIdx (ix3 b n d) ⟨GD.startIndexMap.idxOf (1 : Fin S4x4096x64.rank), by decide⟩ = ix2 n (0 : Fin 1) := by
    funext a
    apply Fin.ext
    match a with
    | ⟨0, _⟩ => rfl
    | ⟨1, _⟩ => rfl
  rw [e]
  rfl

/-- The gathered entry: the node table at the start word of the line, read signed and clamped into the table. -/
theorem gather_apply (z : FVec Ideal S4x4096x64 .f32) (col : IVec S262144x1 32) (b : Fin 4) (n : Fin 262144) (d : Fin 64)
    (r : Fin 4096) (hr : r.val = min (col (ix2 n (0 : Fin 1))).toInt.toNat 4095) :
    Host.gather GD z col (ix3 b n d) = z (ix3 b r d) := by
  unfold Host.gather
  refine congrArg z (funext fun a => Fin.ext ?_)
  match a with
  | ⟨0, _⟩ => exact opIdx_0 col b n d
  | ⟨1, _⟩ => exact (opIdx_1 col b n d).trans hr.symm
  | ⟨2, _⟩ => exact opIdx_2 col b n d

/-- With every index word in range, line `n = 2 e + j` of the take is endpoint `j` of pair `e`. -/
theorem take_apply (z : FVec Ideal S4x4096x64 .f32) (pairs : IVec S131072x2 32) (hall : ∀ i, InRange (pairs i))
    (b : Fin 4) (e : Fin 131072) (j : Fin 2) (n : Fin 262144) (hn : n.val = e.val * 2 + j.val) (d : Fin 64) :
    takeTerm z pairs (ix3 b n d) = node z pairs b e j d := by
  unfold takeTerm
  rw [select_apply,
    broadcastInDim_apply _ bcast_S262144_S4x262144x64_1 _ (ix3 b n d) (ix1 n) (fun a => by
      match a with
      | ⟨0, _⟩ => show n.val = if (262144 : Nat) = 1 then 0 else n.val; rw [if_neg (by decide)]),
    ok_apply pairs hall n, select_one]
  show Host.gather GD z (colTerm pairs) (ix3 b n d) = z (ix3 b (rowOf (pairs (ix2 e j))) d)
  exact gather_apply z (colTerm pairs) b n d (rowOf (pairs (ix2 e j))) (by
    rw [col_apply pairs e j n hn]
    rfl)

/-- With every index word in range, line `b · 131072 + e` of the side-by-side rows is the two endpoints of pair `e`
    in batch `b`. -/
theorem zij_apply (z : FVec Ideal S4x4096x64 .f32) (pairs : IVec S131072x2 32) (hall : ∀ i, InRange (pairs i))
    (b : Fin 4) (e : Fin 131072) (row : Fin 524288) (hrow : row.val = b.val * 131072 + e.val) (k : Fin 128) :
    zijTerm z pairs (ix2 row k) = catRow (node z pairs b e 0) (node z pairs b e 1) k := by
  unfold zijTerm catRow
  rw [LibConv.flatten3_apply _ shapeCasts_S4x131072x128_S524288x128 b e k row hrow, truncf_apply]
  by_cases hk : k.val < 64
  · rw [dif_pos hk,
      shapeCast_apply (takeTerm z pairs) shapeCasts_S4x262144x64_S4x131072x128 (ix3 b e k)
        (ix3 b (⟨e.val * 2 + 0, by omega⟩ : Fin 262144) (⟨k.val, hk⟩ : Fin 64)) (by
          rw [Shape.rowMajor_val_three, Shape.rowMajor_val_three]
          show (b.val * 262144 + (e.val * 2 + 0)) * 64 + k.val = (b.val * 131072 + e.val) * 128 + k.val
          omega),
      take_apply z pairs hall b e 0 _ rfl]
  · rw [dif_neg hk,
      shapeCast_apply (takeTerm z pairs) shapeCasts_S4x262144x64_S4x131072x128 (ix3 b e k)
        (ix3 b (⟨e.val * 2 + 1, by omega⟩ : Fin 262144) (⟨k.val - 64, by omega⟩ : Fin 64)) (by
          rw [Shape.rowMajor_val_three, Shape.rowMajor_val_three]
          show (b.val * 262144 + (e.val * 2 + 1)) * 64 + (k.val - 64) = (b.val * 131072 + e.val) * 128 + k.val
          omega),
      take_apply z pairs hall b e 1 _ rfl]

end Cert.KernelIdeal.Win

end
-- ==== Proof.Bridge.lean ====
/-
  The body's row formula is the specification's.

  Feed the body a row that is the two endpoint rows `zi`, `zj` side by side, weights that read as the folded first
  weights and the product block's weights, and the biases and transposed second weights. Its hidden unit `r` is then
  `Σ_k [zi|zj]_k · folded_k + Σ_k (zi_k · zj_k) · w_{k+192} + b1_r`, which is `feature · W1[r, ·] + b1_r` by the
  first layer's law (rows and weights real); the rest of the body is the specification's second layer word for word.
-/
import proofs.«401041_j62775241998442_2_alg».proof.Proof.Payload
import proofs.«401041_j62775241998442_2_alg».proof.Proof.Law

noncomputable section

open scoped BigOperators

namespace Cert.KernelIdeal.Bridge

open Cert.KernelIdeal Cert.KernelIdeal.Gen Idealize.ShloMosaic Idealize.ShloMosaic.ValueIdx Cert.PairMlp Cert.LibReal

/-- The left half of the side-by-side rows is the first endpoint. -/
theorem catRow_lo (zi zj : Fin 64 → EReal) (k : Fin 64) : catRow zi zj ⟨k.val, by omega⟩ = zi k := by
  unfold catRow
  rw [dif_pos (show k.val < 64 from k.isLt)]

/-- The right half is the second endpoint. -/
theorem catRow_hi (zi zj : Fin 64 → EReal) (k : Fin 64) : catRow zi zj ⟨k.val + 64, by omega⟩ = zj k := by
  unfold catRow
  rw [dif_neg (show ¬(k.val + 64 < 64) by omega)]
  exact congrArg zj (Fin.ext (show k.val + 64 - 64 = k.val by omega))

variable (zi zj : Fin 64 → EReal) (W1 : SW1.Idx → EReal) (b1 : SB.Idx → EReal) (W2 : SW2.Idx → EReal) (b2 : SB.Idx → EReal)
variable (x1 : FVec Ideal S128x64 .bf16) (x2 : FVec Ideal S64x64 .bf16) (x3 : FVec Ideal S1x64 .f32)
  (x4 : FVec Ideal S64x64 .bf16) (x5 : FVec Ideal S1x64 .f32)

/-- The body's hidden unit is the specification's, before the cut-off at zero. -/
theorem hid_eq (h1 : ∀ (k : Fin 128) (r : Fin 64), x1 (ix2 k r) = foldW (fun f => W1 (ix2 r f)) k)
    (h2 : ∀ k r : Fin 64, x2 (ix2 k r) = W1 (ix2 r ⟨k.val + 192, by omega⟩))
    (h3 : ∀ r : Fin 64, x3 (ix2 (0 : Fin 1) r) = b1 (ix1 r))
    (hzi : ∀ d, IsReal (zi d)) (hzj : ∀ d, IsReal (zj d)) (hw : ∀ i, IsReal (W1 i)) (r : Fin 64) :
    Pay.hid (catRow zi zj) x1 x2 x3 r = ∑ f : Fin 256, feat zi zj f * W1 (ix2 r f) + b1 (ix1 r) := by
  unfold Pay.hid
  rw [h3 r, ← firstLayer_law zi zj (fun f => W1 (ix2 r f)) hzi hzj (fun f => hw _)]
  congr 2
  · exact Finset.sum_congr rfl fun k _ => by rw [h1 k r]
  · exact Finset.sum_congr rfl fun k _ => by rw [catRow_lo, catRow_hi, h2 k r]

/-- The body's output at a row is the specification's. -/
theorem rowOut_eq (h1 : ∀ (k : Fin 128) (r : Fin 64), x1 (ix2 k r) = foldW (fun f => W1 (ix2 r f)) k)
    (h2 : ∀ k r : Fin 64, x2 (ix2 k r) = W1 (ix2 r ⟨k.val + 192, by omega⟩))
    (h3 : ∀ r : Fin 64, x3 (ix2 (0 : Fin 1) r) = b1 (ix1 r))
    (h4 : ∀ r s : Fin 64, x4 (ix2 r s) = W2 (ix2 s r))
    (h5 : ∀ s : Fin 64, x5 (ix2 (0 : Fin 1) s) = b2 (ix1 s))
    (hzi : ∀ d, IsReal (zi d)) (hzj : ∀ d, IsReal (zj d)) (hw : ∀ i, IsReal (W1 i)) (s : Fin 64) :
    Pay.rowOut (catRow zi zj) x1 x2 x3 x4 x5 s = outAt zi zj W1 b1 W2 b2 s := by
  unfold Pay.rowOut outAt Cert.PairMlp.hidden
  rw [h5 s]
  congr 1
  exact Finset.sum_congr rfl fun r _ => by
    rw [hid_eq zi zj W1 b1 x1 x2 x3 h1 h2 h3 hzi hzj hw r, h4 r s]

end Cert.KernelIdeal.Bridge

end
-- ==== Proof.KernelRun.lean ====
/-
  The kernel's run, with its result named.

  After the region the program reads the output matrix (one line per batch and pair) as the result array
  `[4, 131072, 64]`: entry `(b, e, s)` is the matrix at line `b · 131072 + e`, column `s`. That line of the matrix is
  the body's formula on line `b · 131072 + e` of the side-by-side rows, which, every index word being in range, is the
  two endpoints of pair `e` in batch `b`; against weights and biases that read as the specification's, the formula
  is the specification's (rows and first weights real). So every weakly fair execution ends with the result array
  at the specification's function of the arguments, and the arguments unchanged.
-/
import proofs.«401041_j62775241998442_2_alg».proof.Proof.Blocks
import proofs.«401041_j62775241998442_2_alg».proof.Proof.WindowsAt
import proofs.«401041_j62775241998442_2_alg».proof.Proof.Bridge
import proofs.«401041_j62775241998442_2_alg».proof.Proof.LibConv
import Idealize.ShloMosaic.Lib.StableHlo.Run

set_option maxRecDepth 16384

noncomputable section

open scoped BigOperators

namespace Cert.KernelIdeal.KRun

open Cert.KernelIdeal Cert.KernelIdeal.Gen Idealize.ShloMosaic Idealize.ShloMosaic.TcCoe Idealize.SL.Sem
open Idealize.ShloMosaic.StableHlo Idealize.ShloMosaic.ValueIdx Cert.PairMlp Cert.LibReal

variable (m : (ℓ : Loc nD τ sig) → Buf (Elt Ideal) ℓ)

/-- The specification's function of the arguments as launched on core `c`. -/
abbrev Gm (c : Dev nD) : S4x131072x64.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- A line of the output matrix is the specification at its batch and pair. -/
theorem gflat_eq (c : Dev nD) (hall : ∀ i, InRange (m ((c : Thread nD τ).loc main_arg1) i))
    (hz : ∀ i, IsReal (m ((c : Thread nD τ).loc main_arg0) i)) (hw : ∀ i, IsReal (m ((c : Thread nD τ).loc main_arg2) i))
    (b : Fin 4) (e : Fin 131072) (s : Fin 64) (row : Fin 524288) (hrow : row.val = b.val * 131072 + e.val) :
    KValue.Gflat (V m c main_v4) (V m c main_v13) (V m c main_v14) (V m c main_v17) (V m c main_v16) (V m c main_v18)
        (ix2 row s)
      = Gm m c (ix3 b e s) := by
  unfold KValue.Gflat
  rw [Win.V_v4 m c, Win.V_v13 m c, Win.V_v14 m c, Win.V_v17 m c, Win.V_v16 m c, Win.V_v18 m c]
  have hrowfun : (fun k : Fin 128 => Win.zijTerm (F := Ideal) (m ((c : Thread nD τ).loc main_arg0)) (m ((c : Thread nD τ).loc main_arg1)) (ix2 row k))
      = catRow (node (m ((c : Thread nD τ).loc main_arg0)) (m ((c : Thread nD τ).loc main_arg1)) b e 0)
          (node (m ((c : Thread nD τ).loc main_arg0)) (m ((c : Thread nD τ).loc main_arg1)) b e 1) :=
    funext fun k => Win.zij_apply (m ((c : Thread nD τ).loc main_arg0)) (m ((c : Thread nD τ).loc main_arg1)) hall b e row hrow k
  show Pay.rowOut (fun k : Fin 128 => Win.zijTerm (F := Ideal) (m ((c : Thread nD τ).loc main_arg0)) (m ((c : Thread nD τ).loc main_arg1)) (ix2 row k))
      (Win.wabTerm (F := Ideal) (m ((c : Thread nD τ).loc main_arg2))) (Win.wdTerm (F := Ideal) (m ((c : Thread nD τ).loc main_arg2)))
      (Win.browTerm (F := Ideal) (m ((c : Thread nD τ).loc main_arg3))) (Win.w2tTerm (F := Ideal) (m ((c : Thread nD τ).loc main_arg4)))
      (Win.browTerm (F := Ideal) (m ((c : Thread nD τ).loc main_arg5))) s = _
  rw [hrowfun]
  exact Bridge.rowOut_eq _ _ (m ((c : Thread nD τ).loc main_arg2)) (m ((c : Thread nD τ).loc main_arg3))
    (m ((c : Thread nD τ).loc main_arg4)) (m ((c : Thread nD τ).loc main_arg5)) _ _ _ _ _
    (Win.wab_apply _) (Win.wd_apply _) (Win.brow_apply _) (Win.w2t_apply _) (Win.brow_apply _)
    (fun d => hz _) (fun d => hz _) hw s

/-- What the lines after the region leave in the result array. -/
theorem tail_eq (c : Dev nD) (hall : ∀ i, InRange (m ((c : Thread nD τ).loc main_arg1) i))
    (hz : ∀ i, IsReal (m ((c : Thread nD τ).loc main_arg0) i)) (hw : ∀ i, IsReal (m ((c : Thread nD τ).loc main_arg2) i)) :
    (Pipeline.afterTail₀ cfgs (dats m) 0 (V0 m) [hostOps1] c main_v20 : S4x131072x64.Idx → EReal) = Gm m c := by
  unfold Pipeline.afterTail₀
  show StableHlo.after hostOps1 _ (Proc.devRef .tc main_v20) = _
  after_results
  rw [Pipeline.withArrays_arr spec0 launch0.win.arr_inj c _ _ 6]
  funext i
  obtain ⟨b, e, s, rfl⟩ : ∃ (b : Fin 4) (e : Fin 131072) (s : Fin 64), i = ix3 b e s := ⟨i 0, i 1, i 2, eq_ix3 i⟩
  show shapeCast S4x131072x64 ((dats m 0 c).arrAt 6 cfg0.N) shapeCasts_S524288x64_S4x131072x64 (ix3 b e s) = _
  rw [KValue.final m c,
    LibConv.unflatten3_apply _ shapeCasts_S524288x64_S4x131072x64 b e s
      (⟨b.val * 131072 + e.val, by have := b.isLt; have := e.isLt; omega⟩ : Fin 524288) rfl]
  exact gflat_eq m c hall hz hw b e s _ rfl

/-- The kernel's run: the result array ends at the specification's function of the arguments, the arguments
    unchanged. -/
theorem run (ρ : Dev nD → PrngReg) (hall : ∀ (c : Dev nD) i, InRange (m ((c : Thread nD τ).loc main_arg1) i))
    (hz : ∀ (c : Dev nD) i, IsReal (m ((c : Thread nD τ).loc main_arg0) i))
    (hw : ∀ (c : Dev nD) i, IsReal (m ((c : Thread nD τ).loc main_arg2) i)) :
    θ_run defs (onTc (τ := τ) (main (F := Ideal))) ⟨m, fun _ => 0, ρ⟩ (fun r => ∀ c : Dev nD,
      r.2.mem ((c.tc : Thread nD τ).loc main_v20) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v20 (Pipeline.mem_restRefs_of main_v20 (by decide) (by decide))).trans (tail_eq m c (hall c) (hz c) (hw c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KRun

end
-- ==== Proof.RefValue.lean ====
/-
  The reference computes `G`: its last stage, read index by index back through its operations, is the
  specification's function of the six arguments.
-/
import proofs.«401041_j62775241998442_2_alg».proof.Proof.Gen.ReferenceIdeal.Read
import proofs.«401041_j62775241998442_2_alg».proof.Proof.Spec

noncomputable section

open scoped BigOperators

namespace Cert.ReferenceIdeal.RefValue

open Cert.ReferenceIdeal Cert.ReferenceIdeal.Gen Idealize.ShloMosaic Idealize.ShloMosaic.ValueIdx
open Cert.ReferenceIdeal.Read

/-- Read back through the column's layout operations, row `e` of the first index column is entry `(e, 0)` of the pairs. -/
private theorem idx_col0 (e : Fin 131072) (c : Fin 1) :
    idx_main_v0 (idx_main_v1 (idx_main_v7 (ix2 e c))) = ix2 e (0 : Fin 2) := by
  funext a
  refine Fin.ext ?_
  match a with
  | ⟨0, _⟩ => exact Nat.div_one _
  | ⟨1, _⟩ => rfl

/-- The first index column at row `e` is the wrapped first index word of pair `e`. -/
private theorem word0 (pairs : (⟨S131072x2, .i32⟩ : BufTy).Contents (Elt Ideal)) (e : Fin 131072) (c : Fin 1) :
    val_main_v7 (F := Ideal) pairs (ix2 e c) = Cert.PairMlp.wrapWord (pairs (ix2 e (0 : Fin 2))) := by
  rw [val_main_v7_apply, val_main_v6_apply, val_main_v3_apply, val_main_v5_apply, val_main_v2_apply, val_main_v4_apply,
    val_main_c_apply, val_main_c_0_apply, val_main_v1_apply, val_main_v0_apply, idx_col0]
  rfl

/-- Read back through the column's layout operations, row `e` of the second index column is entry `(e, 1)` of the pairs. -/
private theorem idx_col1 (e : Fin 131072) (c : Fin 1) :
    idx_main_v9 (idx_main_v10 (idx_main_v16 (ix2 e c))) = ix2 e (1 : Fin 2) := by
  funext a
  refine Fin.ext ?_
  match a with
  | ⟨0, _⟩ => exact Nat.div_one _
  | ⟨1, _⟩ => rfl

/-- The second index column at row `e` is the wrapped second index word of pair `e`. -/
private theorem word1 (pairs : (⟨S131072x2, .i32⟩ : BufTy).Contents (Elt Ideal)) (e : Fin 131072) (c : Fin 1) :
    val_main_v16 (F := Ideal) pairs (ix2 e c) = Cert.PairMlp.wrapWord (pairs (ix2 e (1 : Fin 2))) := by
  rw [val_main_v16_apply, val_main_v15_apply, val_main_v12_apply, val_main_v14_apply, val_main_v11_apply, val_main_v13_apply,
    val_main_c_1_apply, val_main_c_2_apply, val_main_v10_apply, val_main_v9_apply, idx_col1]
  rfl

/-- The dimension numbers of the two gathers: whole rows of the node table, one start index per pair. -/
private abbrev GD := gather_S4x4096x64_S131072x1_S4x131072x64_02_1_n_n_1_1_4164

/-- On the batch axis of the table a gathered element reads its own batch coordinate. -/
private theorem opIdx_0 {w : Nat} (j : S4x131072x64.Idx) (idx : IVec S131072x1 w) :
    (GD.operandIdx j idx 0).val = (j 0).val := by
  show GatherDims.start GD _ _ _ + GatherDims.batchCoord GD _ _ + GatherDims.offCoord GD _ _ = _
  rw [GatherDims.batchCoord_eq_zero _ _ _ (by decide), Nat.add_zero]
  unfold GatherDims.start GatherDims.offCoord
  rw [dif_neg (show ¬(0 : Fin S4x4096x64.rank) ∈ GD.startIndexMap by decide),
    dif_pos (show (0 : Fin S4x4096x64.rank) ∈ GD.sKept by decide), Nat.zero_add]
  rfl

/-- On the row axis it reads the start index, signed, clamped into the table. -/
private theorem opIdx_1 {w : Nat} (j : S4x131072x64.Idx) (idx : IVec S131072x1 w) :
    (GD.operandIdx j idx 1).val = min (idx (ix2 (j 1) (0 : Fin 1))).toInt.toNat 4095 := by
  show GatherDims.start GD _ _ _ + GatherDims.batchCoord GD _ _ + GatherDims.offCoord GD _ _ = _
  rw [GatherDims.batchCoord_eq_zero _ _ _ (by decide), Nat.add_zero,
    GatherDims.offCoord_eq_zero _ _ _ (by decide), Nat.add_zero]
  unfold GatherDims.start
  rw [dif_pos (show (1 : Fin S4x4096x64.rank) ∈ GD.startIndexMap by decide)]
  have hsi : GD.siIdx j ⟨List.idxOf (1 : Fin S4x4096x64.rank) GD.startIndexMap,
      List.idxOf_lt_length_iff.2 (by decide)⟩ = ix2 (j 1) (0 : Fin 1) := by
    funext c; refine Fin.ext ?_
    match c with
    | ⟨0, _⟩ => rfl
    | ⟨1, _⟩ => rfl
  rw [hsi]
  rfl

/-- On the coordinate axis it reads its own coordinate. -/
private theorem opIdx_2 {w : Nat} (j : S4x131072x64.Idx) (idx : IVec S131072x1 w) :
    (GD.operandIdx j idx 2).val = (j 2).val := by
  show GatherDims.start GD _ _ _ + GatherDims.batchCoord GD _ _ + GatherDims.offCoord GD _ _ = _
  rw [GatherDims.batchCoord_eq_zero _ _ _ (by decide), Nat.add_zero]
  unfold GatherDims.start GatherDims.offCoord
  rw [dif_neg (show ¬(2 : Fin S4x4096x64.rank) ∈ GD.startIndexMap by decide),
    dif_pos (show (2 : Fin S4x4096x64.rank) ∈ GD.sKept by decide), Nat.zero_add]
  rfl

/-- The row of the node table a gathered element reads: the result's own batch and coordinate, and the start
    index read signed and clamped into the table. -/
private theorem gather_row {α : Type} (x : S4x4096x64.Idx → α) (idx : IVec S131072x1 32)
    (b : Fin 4) (e : Fin 131072) (d : Fin 64) (row : Fin 4096)
    (hrow : row.val = min (idx (ix2 e (0 : Fin 1))).toInt.toNat 4095) :
    Host.gather gather_S4x4096x64_S131072x1_S4x131072x64_02_1_n_n_1_1_4164 x idx (ix3 b e d) = x (ix3 b row d) := by
  unfold Host.gather
  congr 1
  funext a
  refine Fin.ext ?_
  match a with
  | ⟨0, _⟩ => exact opIdx_0 _ _
  | ⟨1, _⟩ => exact (opIdx_1 _ _).trans hrow.symm
  | ⟨2, _⟩ => exact opIdx_2 _ _

/-- Four arrays joined along the last axis, read at an index: the array whose span of 64 holds the last
    coordinate, at that coordinate less the spans before it. -/
private theorem cat4_apply {α : Type} (x0 x1 x2 x3 : S4x131072x64.Idx → α)
    (h : Shape.Concatenates [S4x131072x64, S4x131072x64, S4x131072x64, S4x131072x64] S4x131072x256 2)
    (b : Fin 4) (e : Fin 131072) (f : Fin 256) :
    concatenate S4x131072x256 2 [⟨S4x131072x64, x0⟩, ⟨S4x131072x64, x1⟩, ⟨S4x131072x64, x2⟩, ⟨S4x131072x64, x3⟩] h (ix3 b e f)
      = if h0 : f.val < 64 then x0 (ix3 b e (⟨f.val, h0⟩ : Fin 64))
        else if h1 : f.val < 128 then x1 (ix3 b e (⟨f.val - 64, by omega⟩ : Fin 64))
        else if h2 : f.val < 192 then x2 (ix3 b e (⟨f.val - 128, by omega⟩ : Fin 64))
        else x3 (ix3 b e (⟨f.val - 192, by omega⟩ : Fin 64)) := by
  have hf := f.isLt
  have hoff : ∀ (c : Fin 64) (a : Fin S4x131072x64.rank), a.cast (rfl : S4x131072x64.rank = S4x131072x256.rank) ≠ 2 →
      ((ix3 b e c : S4x131072x64.Idx) a).val = ((ix3 b e f : S4x131072x256.Idx) (a.cast rfl)).val := by
    intro c a ha
    match a with
    | ⟨0, _⟩ => rfl
    | ⟨1, _⟩ => rfl
    | ⟨2, _⟩ => exact absurd rfl ha
  split
  · next h0 =>
    exact concatenate_apply_piece (t := S4x131072x256) 2 [⟨S4x131072x64, x0⟩, ⟨S4x131072x64, x1⟩, ⟨S4x131072x64, x2⟩, ⟨S4x131072x64, x3⟩] h (ix3 b e f) 0 (by show (0 : Nat) < 4; omega) S4x131072x64 x0 rfl rfl 0 rfl
      (ix3 b e (⟨f.val, h0⟩ : Fin 64)) (hoff _) (by show 0 + f.val = f.val; omega)
  · next h0 =>
    split
    · next h1 =>
      exact concatenate_apply_piece (t := S4x131072x256) 2 [⟨S4x131072x64, x0⟩, ⟨S4x131072x64, x1⟩, ⟨S4x131072x64, x2⟩, ⟨S4x131072x64, x3⟩] h (ix3 b e f) 1 (by show (1 : Nat) < 4; omega) S4x131072x64 x1 rfl rfl 64 rfl
        (ix3 b e (⟨f.val - 64, by omega⟩ : Fin 64)) (hoff _) (by show 64 + (f.val - 64) = f.val; omega)
    · next h1 =>
      split
      · next h2 =>
        exact concatenate_apply_piece (t := S4x131072x256) 2 [⟨S4x131072x64, x0⟩, ⟨S4x131072x64, x1⟩, ⟨S4x131072x64, x2⟩, ⟨S4x131072x64, x3⟩] h (ix3 b e f) 2 (by show (2 : Nat) < 4; omega) S4x131072x64 x2 rfl rfl 128 rfl
          (ix3 b e (⟨f.val - 128, by omega⟩ : Fin 64)) (hoff _) (by show 128 + (f.val - 128) = f.val; omega)
      · next h2 =>
        exact concatenate_apply_piece (t := S4x131072x256) 2 [⟨S4x131072x64, x0⟩, ⟨S4x131072x64, x1⟩, ⟨S4x131072x64, x2⟩, ⟨S4x131072x64, x3⟩] h (ix3 b e f) 3 (by show (3 : Nat) < 4; omega) S4x131072x64 x3 rfl rfl 192 rfl
          (ix3 b e (⟨f.val - 192, by omega⟩ : Fin 64)) (hoff _) (by show 192 + (f.val - 192) = f.val; omega)

/-- The first gather reads the first endpoint's row. -/
private theorem v8_apply (z : (⟨S4x4096x64, .f32⟩ : BufTy).Contents (Elt Ideal)) (pairs : (⟨S131072x2, .i32⟩ : BufTy).Contents (Elt Ideal))
    (b : Fin 4) (e : Fin 131072) (d : Fin 64) :
    val_main_v8 (F := Ideal) z pairs (ix3 b e d) = Cert.PairMlp.node z pairs b e 0 d := by
  unfold val_main_v8 Cert.PairMlp.node
  refine gather_row z _ b e d _ ?_
  show min _ 4095 = min _ 4095
  rw [word0]

/-- The second gather reads the second endpoint's row. -/
private theorem v17_apply (z : (⟨S4x4096x64, .f32⟩ : BufTy).Contents (Elt Ideal)) (pairs : (⟨S131072x2, .i32⟩ : BufTy).Contents (Elt Ideal))
    (b : Fin 4) (e : Fin 131072) (d : Fin 64) :
    val_main_v17 (F := Ideal) z pairs (ix3 b e d) = Cert.PairMlp.node z pairs b e 1 d := by
  unfold val_main_v17 Cert.PairMlp.node
  refine gather_row z _ b e d _ ?_
  show min _ 4095 = min _ 4095
  rw [word1]

/-- The joined array is the pair feature. -/
private theorem v20_apply (z : (⟨S4x4096x64, .f32⟩ : BufTy).Contents (Elt Ideal)) (pairs : (⟨S131072x2, .i32⟩ : BufTy).Contents (Elt Ideal))
    (b : Fin 4) (e : Fin 131072) (f : Fin 256) :
    val_main_v20 (F := Ideal) z pairs (ix3 b e f)
      = Cert.PairMlp.feat (Cert.PairMlp.node z pairs b e 0) (Cert.PairMlp.node z pairs b e 1) f := by
  unfold val_main_v20 Cert.PairMlp.feat
  rw [cat4_apply]
  by_cases h0 : f.val < 64
  · rw [dif_pos h0, dif_pos h0, v8_apply]
  · rw [dif_neg h0, dif_neg h0]
    by_cases h1 : f.val < 128
    · rw [dif_pos h1, dif_pos h1, v17_apply]
    · rw [dif_neg h1, dif_neg h1]
      by_cases h2 : f.val < 192
      · rw [dif_pos h2, dif_pos h2, val_main_v18_apply, v8_apply, v17_apply, Ideal.subf_def]
      · rw [dif_neg h2, dif_neg h2, val_main_v19_apply, v8_apply, v17_apply, Ideal.mulf_def]

/-- The first layer before the cut-off: the feature against a row of the weights, plus the bias. -/
private theorem v24_apply (z : (⟨S4x4096x64, .f32⟩ : BufTy).Contents (Elt Ideal)) (pairs : (⟨S131072x2, .i32⟩ : BufTy).Contents (Elt Ideal))
    (W1 : (⟨S64x256, .f32⟩ : BufTy).Contents (Elt Ideal)) (b1 : (⟨S64, .f32⟩ : BufTy).Contents (Elt Ideal))
    (b : Fin 4) (e : Fin 131072) (r : Fin 64) :
    val_main_v24 (F := Ideal) z pairs W1 b1 (ix3 b e r)
      = ∑ f : Fin 256, Cert.PairMlp.feat (Cert.PairMlp.node z pairs b e 0) (Cert.PairMlp.node z pairs b e 1) f * W1 (ix2 r f)
          + b1 (ix1 r) := by
  rw [val_main_v24_apply, val_main_v21_apply, val_main_v23_apply, val_main_v22_apply, Ideal.addf_def]
  have hb : idx_main_v22 (idx_main_v23 (ix3 b e r)) = ix1 r := funext fun a => by
    match a with
    | ⟨0, _⟩ => rfl
  rw [hb]
  congr 1
  refine Finset.sum_congr rfl fun k _ => ?_
  have hl : lidx_main_v21 (ix3 b e r) k = ix3 b e k := funext fun a => by
    match a with
    | ⟨0, _⟩ => rfl
    | ⟨1, _⟩ => rfl
    | ⟨2, _⟩ => rfl
  have hr : ridx_main_v21 (ix3 b e r) k = ix2 r k := funext fun a => by
    match a with
    | ⟨0, _⟩ => rfl
    | ⟨1, _⟩ => rfl
  rw [hl, hr, v20_apply]

/-- The hidden layer. -/
private theorem v25_apply (z : (⟨S4x4096x64, .f32⟩ : BufTy).Contents (Elt Ideal)) (pairs : (⟨S131072x2, .i32⟩ : BufTy).Contents (Elt Ideal))
    (W1 : (⟨S64x256, .f32⟩ : BufTy).Contents (Elt Ideal)) (b1 : (⟨S64, .f32⟩ : BufTy).Contents (Elt Ideal))
    (b : Fin 4) (e : Fin 131072) (r : Fin 64) :
    val_main_v25 (F := Ideal) z pairs W1 b1 (ix3 b e r)
      = Cert.PairMlp.hidden (Cert.PairMlp.node z pairs b e 0) (Cert.PairMlp.node z pairs b e 1) W1 b1 r := by
  rw [val_main_v25_apply, val_main_call0_v0_apply, val_main_call0_cst_apply, v24_apply, Ideal.maximumf_def,
    Ideal.ofBits_def, Ideal.ofBits_zero_f32]
  rfl

/-- The reference's result is the specification's function of the arguments. -/
theorem ref_eq (z : (⟨S4x4096x64, .f32⟩ : BufTy).Contents (Elt Ideal)) (pairs : (⟨S131072x2, .i32⟩ : BufTy).Contents (Elt Ideal))
    (W1 : (⟨S64x256, .f32⟩ : BufTy).Contents (Elt Ideal)) (b1 : (⟨S64, .f32⟩ : BufTy).Contents (Elt Ideal))
    (W2 : (⟨S64x64, .f32⟩ : BufTy).Contents (Elt Ideal)) (b2 : (⟨S64, .f32⟩ : BufTy).Contents (Elt Ideal)) :
    Cert.ReferenceIdeal.Read.val_main_v29 (F := Ideal) z pairs W1 b1 W2 b2 = Cert.PairMlp.G z pairs W1 b1 W2 b2 := by
  funext i
  obtain ⟨b, e, s, rfl⟩ : ∃ b e s, i = ix3 b e s := ⟨i 0, i 1, i 2, eq_ix3 i⟩
  show _ = Cert.PairMlp.outAt (Cert.PairMlp.node z pairs b e 0) (Cert.PairMlp.node z pairs b e 1) W1 b1 W2 b2 s
  unfold Cert.PairMlp.outAt
  rw [val_main_v29_apply, val_main_v26_apply, val_main_v28_apply, val_main_v27_apply, Ideal.addf_def]
  have hb : idx_main_v27 (idx_main_v28 (ix3 b e s)) = ix1 s := funext fun a => by
    match a with
    | ⟨0, _⟩ => rfl
  rw [hb]
  congr 1
  refine Finset.sum_congr rfl fun k _ => ?_
  have hl : lidx_main_v26 (ix3 b e s) k = ix3 b e k := funext fun a => by
    match a with
    | ⟨0, _⟩ => rfl
    | ⟨1, _⟩ => rfl
    | ⟨2, _⟩ => rfl
  have hr : ridx_main_v26 (ix3 b e s) k = ix2 s k := funext fun a => by
    match a with
    | ⟨0, _⟩ => rfl
    | ⟨1, _⟩ => rfl
  rw [hl, hr, v25_apply]

end Cert.ReferenceIdeal.RefValue

end
-- ==== Proof.PreRead.lean ====
/-
  The precondition read back: every entry of the node table and of the first layer's weights is a real, and every
  index word of the pairs is in range.
-/
import proofs.«401041_j62775241998442_2_alg».proof.Pre_finite_inputs
import proofs.«401041_j62775241998442_2_alg».proof.Proof.Spec
import proofs.«401041_j62775241998442_2_alg».proof.Proof.Words
import proofs.«401041_j62775241998442_2_alg».proof.Proof.LibReal

noncomputable section

namespace Cert.PairMlp

open Idealize.ShloMosaic Idealize.ShloMosaic.ValueIdx Cert.LibReal

/-- What the proof uses of the precondition. -/
theorem pre_reads [Cert.Pre_finite_inputs.Facts]
    (z : FVec Ideal Cert.Pre_finite_inputs.S4x4096x64 .f32) (pairs : IVec Cert.Pre_finite_inputs.S131072x2 32)
    (W1 : FVec Ideal Cert.Pre_finite_inputs.S64x256 .f32) (b1 : FVec Ideal Cert.Pre_finite_inputs.S64 .f32)
    (W2 : FVec Ideal Cert.Pre_finite_inputs.S64x64 .f32) (b2 : FVec Ideal Cert.Pre_finite_inputs.S64 .f32)
    (h : Cert.Pre_finite_inputs.fn (F := Ideal) z pairs W1 b1 W2 b2 = fun _ => 1#1) :
    (∀ i, IsReal (z i)) ∧ (∀ i, IsReal (W1 i)) ∧ (∀ i, InRange (pairs i)) := by
  open Cert.Pre_finite_inputs Cert.Pre_finite_inputs.Facts in
  -- the printed precondition at its one scalar index, its chain of operations substituted
  have h0 := congrFun h ix0
  dsimp only [Cert.Pre_finite_inputs.fn, Cert.Pre_finite_inputs.fn_part1] at h0
  -- it is an "and" of six tests, nested to the left; an "and" of one-bit words is set exactly when both are
  have h0' : IntOp.andi _ _ = 1#1 := h0
  obtain ⟨h1, hp⟩ := IntOp.andi_eq_one.mp h0'
  have h1' : IntOp.andi _ _ = 1#1 := h1
  obtain ⟨h2, -⟩ := IntOp.andi_eq_one.mp h1'
  have h2' : IntOp.andi _ _ = 1#1 := h2
  obtain ⟨h3, -⟩ := IntOp.andi_eq_one.mp h2'
  have h3' : IntOp.andi _ _ = 1#1 := h3
  obtain ⟨h4, -⟩ := IntOp.andi_eq_one.mp h3'
  have h4' : IntOp.andi _ _ = 1#1 := h4
  obtain ⟨hz, hW1⟩ := IntOp.andi_eq_one.mp h4'
  refine ⟨fun i => ?_, fun i => ?_, fun i => ?_⟩
  · -- the node table: "every |z| is below +∞" came out set
    exact isReal_of_all z bcast_S_S4x4096x64 reducesTo_S4x4096x64_S_d0_1_2 h_S_ hz i
  · -- the first layer's weights, likewise
    exact isReal_of_all W1 bcast_S_S64x256 reducesTo_S64x256_S_d0_1 h_S_ hW1 i
  · -- the pairs: the "and" over all index words of the two comparisons came out set, so it is set at word i
    have he := Host.reduce_andi_all _ _ reducesTo_S131072x2_S_d0_1 h_S_ ix0 hp i
    have he' : IntOp.andi _ _ = 1#1 := he
    obtain ⟨ha, hb⟩ := IntOp.andi_eq_one.mp he'
    -- a broadcast scalar reads the scalar at every index
    have e0 : broadcastInDim S131072x2 ![] bcast_S_S131072x2 (constantI S_ 32 0#32) i = 0#32 := by
      rw [broadcastInDim_apply ![] bcast_S_S131072x2 _ i ix0 (fun a => a.elim0)]; rfl
    have e1 : broadcastInDim S131072x2 ![] bcast_S_S131072x2 (constantI S_ 32 4096#32) i = 4096#32 := by
      rw [broadcastInDim_apply ![] bcast_S_S131072x2 _ i ix0 (fun a => a.elim0)]; rfl
    have ha' : IntOp.cmpi .sge (pairs i) (broadcastInDim S131072x2 ![] bcast_S_S131072x2 (constantI S_ 32 0#32) i) = 1#1 := ha
    have hb' : IntOp.cmpi .slt (pairs i) (broadcastInDim S131072x2 ![] bcast_S_S131072x2 (constantI S_ 32 4096#32) i) = 1#1 := hb
    rw [e0] at ha'
    rw [e1] at hb'
    exact ⟨ha', hb'⟩

end Cert.PairMlp

end
-- ==== Proof.lean ====
/-
  A pair-relation encoder: for each of 4 batches and 131072 pairs of node indices, the two endpoint rows `zi`, `zj`
  (64 coordinates each) of a 4096-row node table feed a two-layer perceptron on the feature
  `[zi, zj, zi - zj, zi * zj]`: 64 hidden units cut off below at zero, 64 outputs.

  The reference gathers the two rows, builds the 256-entry feature and multiplies by the first weights `W1`. The
  kernel never builds the feature: before its one region it folds the difference into the weights,
  `zi·Wa + zj·Wb + (zi - zj)·Wc = zi·(Wa + Wc) + zj·(Wb - Wc)`, takes both endpoint rows in one take (with a fill
  where an index is outside the table), lays them side by side, and the region's body computes, 8192 pairs at a
  grid point, `max ([zi|zj]·folded + (zi*zj)·Wd + b1) 0 · W2ᵀ + b2`.

  On the extended reals the two agree when (i) every index word is at least 0 and below 4096, so that the take's
  range test is set and its fill is never read, and both gathers read the same row; and (ii) the node table and
  the first weights are finite, so that the fold above, which is distributivity, holds. Both are read out of the
  precondition. The changes of float format are the identity, a product accumulated into zero is the plain sum, and
  the 64 blocks of 8192 rows tile the output, so the kernel's result array is one function of the arguments, the
  same one the reference's last operation is.

  The three frames are the generated ones (the reference's is its generated run with the result dropped); no
  operation of the kernel was rewritten for the idealization, so that claim is empty.
-/
import proofs.«401041_j62775241998442_2_alg».proof.Defs
import proofs.«401041_j62775241998442_2_alg».proof.Proof.Gen.Kernel
import proofs.«401041_j62775241998442_2_alg».proof.Proof.Gen.Kernel.Skeleton
import proofs.«401041_j62775241998442_2_alg».proof.Proof.Gen.Kernel.Launch
import proofs.«401041_j62775241998442_2_alg».proof.Proof.Gen.Kernel.Points
import proofs.«401041_j62775241998442_2_alg».proof.Proof.Gen.Kernel.Frame
import proofs.«401041_j62775241998442_2_alg».proof.Proof.Gen.KernelIdeal
import proofs.«401041_j62775241998442_2_alg».proof.Proof.Gen.KernelIdeal.Skeleton
import proofs.«401041_j62775241998442_2_alg».proof.Proof.Gen.KernelIdeal.Launch
import proofs.«401041_j62775241998442_2_alg».proof.Proof.Gen.KernelIdeal.Points
import proofs.«401041_j62775241998442_2_alg».proof.Proof.Gen.KernelIdeal.Frame
import proofs.«401041_j62775241998442_2_alg».proof.Proof.Gen.ReferenceIdeal
import proofs.«401041_j62775241998442_2_alg».proof.Proof.Gen.Pre_finite_inputs
import proofs.«401041_j62775241998442_2_alg».proof.Proof.Gen.ReferenceIdeal.Run
import proofs.«401041_j62775241998442_2_alg».proof.Proof.Gen.ReferenceIdeal.Read
import proofs.«401041_j62775241998442_2_alg».proof.Proof.KernelRun
import proofs.«401041_j62775241998442_2_alg».proof.Proof.RefValue
import proofs.«401041_j62775241998442_2_alg».proof.Proof.PreRead
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both programs end with the result array at the specification's function of the
    arguments: the kernel by its run read through its blocks, the reference by its last operation read back; the
    precondition supplies the index range and the finiteness the kernel's side needs. -/
theorem algebraic : Cert.algebraic_KernelIdeal_ReferenceIdeal := by
  intro m ρ m' ρ' hpre hagree
  have hp := fun c => Cert.PairMlp.pre_reads _ _ _ _ _ _ (hpre c)
  refine ⟨fun c => Cert.KernelIdeal.KRun.Gm m c,
    Cert.KernelIdeal.KRun.run m ρ (fun c => (hp c).2.2) (fun c => (hp c).1) (fun c => (hp c).2.1), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.ref_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
